-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v77) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x128 .f32) (main_arg1 : FVec F S800000 .f32) (main_arg2 : FVec F S128x128 .f32) (main_arg3 : FVec F S128 .f32) (main_arg4 : FVec F S128x64 .f32) (main_arg5 : FVec F S64 .f32) (main_arg6 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x800000 : Shape := ⟨2, ![2, 800000]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S10000x128 : Shape := ⟨2, ![10000, 128]⟩
abbrev S10000x1 : Shape := ⟨2, ![10000, 1]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S10000x64 : Shape := ⟨2, ![10000, 64]⟩
abbrev S1x64 : Shape := ⟨2, ![1, 64]⟩

abbrev nBuf : Space → Nat
  | .hbm => 106
  | .vmem => 48
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S2x800000, .i32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x128, .f32⟩
  | .hbm, ⟨80, _⟩ => ⟨S850000x1, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x64, .f32⟩
  | .hbm, ⟨89, _⟩ => ⟨S_, .i32⟩
  | .hbm, ⟨90, _⟩ => ⟨S850000, .i32⟩
  | .hbm, ⟨91, _⟩ => ⟨S850000, .i1⟩
  | .hbm, ⟨92, _⟩ => ⟨S_, .i32⟩
  | .hbm, ⟨93, _⟩ => ⟨S850000, .i32⟩
  | .hbm, ⟨94, _⟩ => ⟨S850000, .i32⟩
  | .hbm, ⟨95, _⟩ => ⟨S850000, .i32⟩
  | .hbm, ⟨96, _⟩ => ⟨S850000x1, .i32⟩
  | .hbm, ⟨97, _⟩ => ⟨S850000x64, .f32⟩
  | .hbm, ⟨98, _⟩ => ⟨S850000x1, .f32⟩
  | .hbm, ⟨99, _⟩ => ⟨S850000x64, .f32⟩
  | .hbm, ⟨100, _⟩ => ⟨S_, .f32⟩
  | .hbm, ⟨101, _⟩ => ⟨S50000x64, .f32⟩
  | .hbm, ⟨102, _⟩ => ⟨S850000x1, .i32⟩
  | .hbm, ⟨103, _⟩ => ⟨S50000x64, .f32⟩
  | .hbm, ⟨104, _⟩ => ⟨S1x64, .f32⟩
  | .hbm, ⟨105, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S10000x128, .f32⟩
  | .local _ .vmem, ⟨6, _⟩ => ⟨S10000x128, .f32⟩
  | .local _ .vmem, ⟨7, _⟩ => ⟨S10000x1, .f32⟩
  | .local _ .vmem, ⟨8, _⟩ => ⟨S10000x1, .f32⟩
  | .local _ .vmem, ⟨9, _⟩ => ⟨S10000x128, .f32⟩
  | .local _ .vmem, ⟨10, _⟩ => ⟨S10000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S10000x128, .f32⟩
  | .local _ .vmem, ⟨22, _⟩ => ⟨S10000x128, .f32⟩
  | .local _ .vmem, ⟨23, _⟩ => ⟨S10000x1, .f32⟩
  | .local _ .vmem, ⟨24, _⟩ => ⟨S10000x1, .f32⟩
  | .local _ .vmem, ⟨25, _⟩ => ⟨S10000x128, .f32⟩
  | .local _ .vmem, ⟨26, _⟩ => ⟨S10000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x64, .f32⟩
  | .local _ .vmem, ⟨35, _⟩ => ⟨S5000x64, .f32⟩
  | .local _ .vmem, ⟨36, _⟩ => ⟨S5000x64, .f32⟩
  | .local _ .vmem, ⟨37, _⟩ => ⟨S10000x64, .f32⟩
  | .local _ .vmem, ⟨38, _⟩ => ⟨S10000x64, .f32⟩
  | .local _ .vmem, ⟨39, _⟩ => ⟨S10000x1, .f32⟩
  | .local _ .vmem, ⟨40, _⟩ => ⟨S10000x1, .f32⟩
  | .local _ .vmem, ⟨41, _⟩ => ⟨S10000x64, .f32⟩
  | .local _ .vmem, ⟨42, _⟩ => ⟨S10000x64, .f32⟩
  | .local _ .vmem, ⟨43, _⟩ => ⟨S5000x64, .f32⟩
  | .local _ .vmem, ⟨44, _⟩ => ⟨S5000x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_12 : Ref sig .tc := ⟨.hbm, 89, rfl⟩
abbrev main_v64 : Ref sig .tc := ⟨.hbm, 90, rfl⟩
abbrev main_v65 : Ref sig .tc := ⟨.hbm, 91, rfl⟩
abbrev main_c_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg1_1 : Ref sig .tc := ⟨.vmem, 40, rfl⟩
abbrev cc7_stg2_0 : Ref sig .tc := ⟨.vmem, 41, rfl⟩
abbrev cc7_stg2_1 : Ref sig .tc := ⟨.vmem, 42, rfl⟩
abbrev cc8_stg0_0 : Ref sig .tc := ⟨.vmem, 43, rfl⟩
abbrev cc8_stg0_1 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg2_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem1_1 : DmaSem sig := 40
abbrev cc7_sem2_0 : DmaSem sig := 41
abbrev cc7_sem2_1 : DmaSem sig := 42
abbrev cc8_sem0_0 : DmaSem sig := 43
abbrev cc8_sem0_1 : DmaSem sig := 44
abbrev cc8_sem1_0 : DmaSem sig := 45
abbrev cc8_sem2_0 : DmaSem sig := 46
abbrev cc8_sem2_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![85], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![85], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![85], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S10000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S850000_S850000x1 : S850000.ShapeCasts S850000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S850000x128.size a
  hwx1_0 : ∀ i : grid1.Coords, EltTy.bits .f32 = 32 ∨ (Rect.block (s := S850000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S850000x1.size a
  hwx1_1 : ∀ i : grid1.Coords, EltTy.bits .f32 = 32 ∨ (Rect.block (s := S850000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S850000x128.size a
  hwx1_2 : ∀ i : grid1.Coords, EltTy.bits .f32 = 32 ∨ (Rect.block (s := S850000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S850000x128.size a
  hwx4_0 : ∀ i : grid4.Coords, EltTy.bits .f32 = 32 ∨ (Rect.block (s := S850000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S850000x1.size a
  hwx4_1 : ∀ i : grid4.Coords, EltTy.bits .f32 = 32 ∨ (Rect.block (s := S850000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S850000x128.size a
  hwx4_2 : ∀ i : grid4.Coords, EltTy.bits .f32 = 32 ∨ (Rect.block (s := S850000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S50000x64.size a
  hwx6_2 : ∀ i : grid6.Coords, EltTy.bits .f32 = 32 ∨ (Rect.block (s := S50000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S850000x64.size a
  hwx7_0 : ∀ i : grid7.Coords, EltTy.bits .f32 = 32 ∨ (Rect.block (s := S850000x64) S10000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x1.size a ≤ S850000x1.size a
  hwx7_1 : ∀ i : grid7.Coords, EltTy.bits .f32 = 32 ∨ (Rect.block (s := S850000x1) S10000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x64.size a ≤ S850000x64.size a
  hwx7_2 : ∀ i : grid7.Coords, EltTy.bits .f32 = 32 ∨ (Rect.block (s := S850000x64) S10000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x64.size a ≤ S50000x64.size a
  hwx8_2 : ∀ i : grid8.Coords, EltTy.bits .f32 = 32 ∨ (Rect.block (s := S50000x64) S5000x64.size (cc8_transform_2 i) (hinb8_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v55) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v56) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v57) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v60) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v61) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v62) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v62) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg4) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v63) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v70) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v71) S10000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v72) S10000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v75) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v76) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v77) S5000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x800000 : Shape := ⟨2, ![2, 800000]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S2x800000, .i32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x64, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x64, .f32⟩
  | .hbm, ⟨82, _⟩ => ⟨S850000x1, .f32⟩
  | .hbm, ⟨83, _⟩ => ⟨S850000x64, .f32⟩
  | .hbm, ⟨84, _⟩ => ⟨S850000x64, .f32⟩
  | .hbm, ⟨85, _⟩ => ⟨S_, .f32⟩
  | .hbm, ⟨86, _⟩ => ⟨S50000x64, .f32⟩
  | .hbm, ⟨87, _⟩ => ⟨S850000x1, .i32⟩
  | .hbm, ⟨88, _⟩ => ⟨S50000x64, .f32⟩
  | .hbm, ⟨89, _⟩ => ⟨S1x64, .f32⟩
  | .hbm, ⟨90, _⟩ => ⟨S50000x64, .f32⟩
  | .hbm, ⟨91, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Spec.lean ====
/-
  The two results as whole-array functions.

  One graph-convolution layer is: a dense product h = x · W; for every edge e (the 800000 given edges followed by one
  self loop per node) the row h[row e] scaled by the edge's coefficient; the scaled rows summed into their target
  nodes; the bias added to every row (and, in the first layer, the negative part cut off). The gathering of rows and
  the summation into nodes are the same host operations in both programs, so only three pieces have to be named as
  functions of whole arrays, index by index: the product, the scaling of row e by coefficient e, and the bias
  (with or without the cut at zero). Each is stated for the two widths that occur (128 and 64 columns).
-/
import Idealize.ShloMosaic.PureOps.Ideal
import Idealize.ShloMosaic.Lib.ValueIdx

noncomputable section

namespace Cert.Gcn

open Idealize.ShloMosaic Idealize.ShloMosaic.ValueIdx

/-- The product of a 50000×128 array with a 128×128 array: entry (p, q) is Σ_k x (p, k) · w (k, q). -/
def mm128 (x : FVec Ideal ⟨2, ![50000, 128]⟩ .f32) (w : FVec Ideal ⟨2, ![128, 128]⟩ .f32) : FVec Ideal ⟨2, ![50000, 128]⟩ .f32 :=
  fun i => ∑ k : Fin 128, x (ix2 (i 0) k) * w (ix2 k (i 1))

/-- The product of a 50000×128 array with a 128×64 array: entry (p, q) is Σ_k x (p, k) · w (k, q). -/
def mm64 (x : FVec Ideal ⟨2, ![50000, 128]⟩ .f32) (w : FVec Ideal ⟨2, ![128, 64]⟩ .f32) : FVec Ideal ⟨2, ![50000, 64]⟩ .f32 :=
  fun i => ∑ k : Fin 128, x (ix2 (i 0) k) * w (ix2 k (i 1))

/-- Row e of an 850000×128 array times the coefficient of edge e (the coefficients held as an 850000×1 column). -/
def scale128 (g : FVec Ideal ⟨2, ![850000, 128]⟩ .f32) (n : FVec Ideal ⟨2, ![850000, 1]⟩ .f32) : FVec Ideal ⟨2, ![850000, 128]⟩ .f32 :=
  fun i => g i * n (ix2 (i 0) 0)

/-- Row e of an 850000×64 array times the coefficient of edge e. -/
def scale64 (g : FVec Ideal ⟨2, ![850000, 64]⟩ .f32) (n : FVec Ideal ⟨2, ![850000, 1]⟩ .f32) : FVec Ideal ⟨2, ![850000, 64]⟩ .f32 :=
  fun i => g i * n (ix2 (i 0) 0)

/-- The bias (held as a 1×128 row) added to every row of a 50000×128 array, then the maximum with zero. -/
def biasRelu128 (a : FVec Ideal ⟨2, ![50000, 128]⟩ .f32) (b : FVec Ideal ⟨2, ![1, 128]⟩ .f32) : FVec Ideal ⟨2, ![50000, 128]⟩ .f32 :=
  fun i => max (a i + b (ix2 0 (i 1))) (Ideal.ofBits .f32 0x00000000#32)

/-- The bias (held as a 1×64 row) added to every row of a 50000×64 array. -/
def bias64 (a : FVec Ideal ⟨2, ![50000, 64]⟩ .f32) (b : FVec Ideal ⟨2, ![1, 64]⟩ .f32) : FVec Ideal ⟨2, ![50000, 64]⟩ .f32 :=
  fun i => a i + b (ix2 0 (i 1))

end Cert.Gcn

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.RegMatmul3.lean ====
/-
  The dense product of the first layer, as one function of whole arrays.

  The region walks the 50000 rows of the input in 10 blocks of 5000 rows. At each block it multiplies the 5000×128
  block of rows by the whole 128×128 weight (the same block at every point) and writes the 5000×128 product as block t
  of the output. On the extended reals the change of float format of both operands is the identity and the product
  accumulated into zero is, entry by entry, the sum over the 128 inner indices of row entry times weight entry. Row
  5000 t + p of the output therefore depends on row 5000 t + p of the input and on the whole weight only, so block t of
  the output is block t of the whole-array product, and the 10 blocks tile the 50000 rows: the output array is that
  product.
-/
import proofs.«163460_j64836826300546_1_alg».proof.Proof.Gen.KernelIdeal.Frame
import proofs.«163460_j64836826300546_1_alg».proof.Proof.Spec
import proofs.«163460_j64836826300546_1_alg».proof.Proof.LibPlainDot
import Idealize.ShloMosaic.Lib.Pipeline.Value
import Idealize.ShloMosaic.Lib.ValueIdx
import Idealize.ShloMosaic.Lib.ValueLayout

set_option maxRecDepth 16384

noncomputable section

namespace Cert.Gcn.Matmul3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The input rows and the weight as the region finds them, at their literal types. -/
abbrev xArr (c : Dev nD) : FVec Ideal S50000x128 .f32 := V c main_arg0
abbrev wArr (c : Dev nD) : FVec Ideal S128x128 .f32 := V c main_arg2

theorem hz : (![0, 0] : Fin 2 → Nat) = fun _ => 0 := funext fun a => by fin_cases a <;> rfl

/-- The body's value at row p, column q: the sum over the inner index of row entry times weight entry. -/
theorem pay_apply (x : Vec Ideal S5000x128 .f32) (w : Vec Ideal S128x128 .f32) (p : Fin 5000) (q : Fin 128) :
    k3_pay1 (F := Ideal) x w (ix2 p q) = ∑ k : Fin 128, x (ix2 p k) * w (ix2 k q) := by
  unfold k3_pay1
  exact PlainDot.matmul_zero_apply 5000 128 128 (truncf .bf16 x bitsLt_bf16_f32) (truncf .bf16 w bitsLt_bf16_f32) p q

/-- The three index maps over the 10 points: the row blocks of input and output are the point's number, the weight's
    block is always the one block it has. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the whole-array product. -/
theorem flushed_eq (c : Dev nD) (t : Fin cfg3.N) :
    (dat3 (F := Ideal) V c).flushed 2 t
      = ((cfg3.win 2).blk t).view.read (Elt Ideal) (mm128 (xArr V c) (wArr V c)) := by
  show (cfg3.win 2).cut (grid3.coords t) ((dat3 V c).after 2 t) = _
  rw [after3_2]
  unfold out3_2
  rw [View.canon_unit_zero hz]
  simp only [View.ld_unit_zero (S := S5000x128) hz, View.ld_unit_zero (S := S128x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k3_pay1 (iblk3 V c 0 t) (iblk3 V c 1 t) (ix2 p q)
    = mm128 (xArr V c) (wArr V c) (((cfg3.win 2).blk t).view.emb (ix2 p q))
  refine (pay_apply (iblk3 V c 0 t) (iblk3 V c 1 t) p q).trans ?_
  unfold mm128
  refine Finset.sum_congr rfl fun k _ => ?_
  show xArr V c (((cfg3.win 0).blk t).view.emb (ix2 p k)) * wArr V c (((cfg3.win 1).blk t).view.emb (ix2 k q))
    = xArr V c (ix2 ((((cfg3.win 2).blk t).view.emb (ix2 p q)) 0) k)
      * wArr V c (ix2 k ((((cfg3.win 2).blk t).view.emb (ix2 p q)) 1))
  have h0 : ((cfg3.win 0).blk t).view.emb (ix2 p k) = ix2 ((((cfg3.win 2).blk t).view.emb (ix2 p q)) 0) k := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * k.val = k.val; omega
  have h1 : ((cfg3.win 1).blk t).view.emb (ix2 k q) = ix2 k ((((cfg3.win 2).blk t).view.emb (ix2 p q)) 1) := by
    funext a; apply Fin.ext
    match a with
    | ⟨0, _⟩ => show win3_1.index t (0 : Fin 2) * 128 + 1 * k.val = k.val; omega
    | ⟨1, _⟩ => show win3_1.index t (1 : Fin 2) * 128 + 1 * q.val = win3_2.index t (1 : Fin 2) * 128 + 1 * q.val; omega
  rw [h0, h1]
  rfl

/-- An index of the output array lies in point t's block iff each coordinate lies in the block's range. -/
theorem mem_blk (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v48).slice (win3_2.rect t)).set ↔ _
  rw [View.set_slice_whole, Rect.mem_set_unit]
  exact Iff.rfl

/-- Row r of the output lies in the block of point r / 5000: the 10 blocks tile the 50000 rows. -/
theorem cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : (i 0).val / 5000 < cfg3.N := by show (i 0).val / 5000 < grid3.N; rw [N_3]; omega
  obtain ⟨e0, e1, e2, e3, e4, e5⟩ := idx_facts ⟨(i 0).val / 5000, hN⟩
  refine ⟨⟨(i 0).val / 5000, hN⟩, flush3_2 _, ?_⟩
  rw [mem_blk]
  intro a
  match a with
  | ⟨0, _⟩ =>
    show win3_2.index ⟨(i 0).val / 5000, hN⟩ (0 : Fin 2) * 5000 ≤ (i 0).val
      ∧ (i 0).val < win3_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, hN⟩ (1 : Fin 2) * 128 ≤ (i 1).val
      ∧ (i 1).val < win3_2.index ⟨(i 0).val / 5000, hN⟩ (1 : Fin 2) * 128 + 128
    rw [e5]; omega

/-- The output array of the region, whatever contents it is entered at: the product of the input rows with the
    weight. -/
theorem arr (c : Dev nD) :
    (dat3 (F := Ideal) V c).arrAt 2 cfg3.N = mm128 (V c main_arg0) (V c main_arg2) :=
  (dat3 V c).arrAt_eq_of_cover 2 _ (fun t _ => flushed_eq V c t) cover

end Cert.Gcn.Matmul3

end
-- ==== Proof.RegMatmul6.lean ====
/-
  The dense product of the second layer, as one function of whole arrays.

  The region walks the 50000 rows of the hidden array in 10 blocks of 5000 rows. At each block it multiplies the
  5000×128 block of rows by the whole 128×64 weight (the same block at every point) and writes the 5000×64 product as
  block t of the output. The reshaping of the left operand to its own shape changes nothing; on the extended reals the
  change of float format of both operands is the identity and the product accumulated into zero is, entry by entry, the
  sum over the 128 inner indices of row entry times weight entry. Row 5000 t + p of the output therefore depends on row
  5000 t + p of the hidden array and on the whole weight only, so block t of the output is block t of the whole-array
  product, and the 10 blocks tile the 50000 rows: the output array is that product.
-/
import proofs.«163460_j64836826300546_1_alg».proof.Proof.Gen.KernelIdeal.Frame
import proofs.«163460_j64836826300546_1_alg».proof.Proof.Spec
import proofs.«163460_j64836826300546_1_alg».proof.Proof.LibPlainDot
import Idealize.ShloMosaic.Lib.Pipeline.Value
import Idealize.ShloMosaic.Lib.ValueIdx
import Idealize.ShloMosaic.Lib.ValueLayout

set_option maxRecDepth 16384

noncomputable section

namespace Cert.Gcn.Matmul6

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The hidden rows and the weight as the region finds them, at their literal types. -/
abbrev xArr (c : Dev nD) : FVec Ideal S50000x128 .f32 := V c main_v62
abbrev wArr (c : Dev nD) : FVec Ideal S128x64 .f32 := V c main_arg4

theorem hz : (![0, 0] : Fin 2 → Nat) = fun _ => 0 := funext fun a => by fin_cases a <;> rfl

/-- The body's value at row p, column q: the sum over the inner index of row entry times weight entry. -/
theorem pay_apply (x : Vec Ideal S5000x128 .f32) (w : Vec Ideal S128x64 .f32) (p : Fin 5000) (q : Fin 64) :
    k6_pay1 (F := Ideal) x w (ix2 p q) = ∑ k : Fin 128, x (ix2 p k) * w (ix2 k q) := by
  unfold k6_pay1
  simp only [shapeCast_self]
  exact PlainDot.matmul_zero_apply 5000 128 64 (truncf .bf16 x bitsLt_bf16_f32) (truncf .bf16 w bitsLt_bf16_f32) p q

/-- The three index maps over the 10 points: the row blocks of input and output are the point's number, the weight's
    block is always the one block it has. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of the whole-array product. -/
theorem flushed_eq (c : Dev nD) (t : Fin cfg6.N) :
    (dat6 (F := Ideal) V c).flushed 2 t
      = ((cfg6.win 2).blk t).view.read (Elt Ideal) (mm64 (xArr V c) (wArr V c)) := by
  show (cfg6.win 2).cut (grid6.coords t) ((dat6 V c).after 2 t) = _
  rw [after6_2]
  unfold out6_2
  rw [View.canon_unit_zero hz]
  simp only [View.ld_unit_zero (S := S5000x128) hz, View.ld_unit_zero (S := S128x64) hz]
  obtain ⟨e0, e1, e2, e3, e4, e5⟩ := idx_facts t
  funext j
  obtain ⟨p, q, rfl⟩ : ∃ (p : Fin 5000) (q : Fin 64), j = ix2 p q := ⟨j 0, j 1, eq_ix2 j⟩
  show k6_pay1 (iblk6 V c 0 t) (iblk6 V c 1 t) (ix2 p q)
    = mm64 (xArr V c) (wArr V c) (((cfg6.win 2).blk t).view.emb (ix2 p q))
  refine (pay_apply (iblk6 V c 0 t) (iblk6 V c 1 t) p q).trans ?_
  unfold mm64
  refine Finset.sum_congr rfl fun k _ => ?_
  show xArr V c (((cfg6.win 0).blk t).view.emb (ix2 p k)) * wArr V c (((cfg6.win 1).blk t).view.emb (ix2 k q))
    = xArr V c (ix2 ((((cfg6.win 2).blk t).view.emb (ix2 p q)) 0) k)
      * wArr V c (ix2 k ((((cfg6.win 2).blk t).view.emb (ix2 p q)) 1))
  have h0 : ((cfg6.win 0).blk t).view.emb (ix2 p k) = ix2 ((((cfg6.win 2).blk t).view.emb (ix2 p q)) 0) k := by
    funext a; apply Fin.ext
    match a with
    | ⟨0, _⟩ => show win6_0.index t (0 : Fin 2) * 5000 + 1 * p.val = win6_2.index t (0 : Fin 2) * 5000 + 1 * p.val; omega
    | ⟨1, _⟩ => show win6_0.index t (1 : Fin 2) * 128 + 1 * k.val = k.val; omega
  have h1 : ((cfg6.win 1).blk t).view.emb (ix2 k q) = ix2 k ((((cfg6.win 2).blk t).view.emb (ix2 p q)) 1) := by
    funext a; apply Fin.ext
    match a with
    | ⟨0, _⟩ => show win6_1.index t (0 : Fin 2) * 128 + 1 * k.val = k.val; omega
    | ⟨1, _⟩ => show win6_1.index t (1 : Fin 2) * 64 + 1 * q.val = win6_2.index t (1 : Fin 2) * 64 + 1 * q.val; omega
  rw [h0, h1]
  rfl

/-- An index of the output array lies in point t's block iff each coordinate lies in the block's range. -/
theorem mem_blk (t : Fin cfg6.N) (i : S50000x64.Idx) :
    i ∈ ((cfg6.win 2).blk t).view.set ↔ ∀ a : Fin 2, win6_2.index t a * S5000x64.size a ≤ (i a).val
      ∧ (i a).val < win6_2.index t a * S5000x64.size a + S5000x64.size a := by
  show i ∈ ((View.whole main_v63).slice (win6_2.rect t)).set ↔ _
  rw [View.set_slice_whole, Rect.mem_set_unit]
  exact Iff.rfl

/-- Row r of the output lies in the block of point r / 5000: the 10 blocks tile the 50000 rows. -/
theorem cover (i : S50000x64.Idx) :
    ∃ t : Fin cfg6.N, (cfg6.win 2).flush t = true ∧ i ∈ ((cfg6.win 2).blk t).view.set := by
  have hi0 : (i 0).val < 50000 := (i 0).isLt
  have hi1 : (i 1).val < 64 := (i 1).isLt
  have hN : (i 0).val / 5000 < cfg6.N := by show (i 0).val / 5000 < grid6.N; rw [N_6]; omega
  obtain ⟨e0, e1, e2, e3, e4, e5⟩ := idx_facts ⟨(i 0).val / 5000, hN⟩
  refine ⟨⟨(i 0).val / 5000, hN⟩, flush6_2 _, ?_⟩
  rw [mem_blk]
  intro a
  match a with
  | ⟨0, _⟩ =>
    show win6_2.index ⟨(i 0).val / 5000, hN⟩ (0 : Fin 2) * 5000 ≤ (i 0).val
      ∧ (i 0).val < win6_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win6_2.index ⟨(i 0).val / 5000, hN⟩ (1 : Fin 2) * 64 ≤ (i 1).val
      ∧ (i 1).val < win6_2.index ⟨(i 0).val / 5000, hN⟩ (1 : Fin 2) * 64 + 64
    rw [e5]; omega

/-- The output array of the region, whatever contents it is entered at: the product of the hidden rows with the
    weight. -/
theorem arr (c : Dev nD) :
    (dat6 (F := Ideal) V c).arrAt 2 cfg6.N = mm64 (V c main_v62) (V c main_arg4) :=
  (dat6 V c).arrAt_eq_of_cover 2 _ (fun t _ => flushed_eq V c t) cover

end Cert.Gcn.Matmul6

end
-- ==== Proof.RegScale4.lean ====
/-
  The scaling region of the first layer, as one function of whole arrays.

  The region walks the 850000 edges in 85 blocks of 10000 rows. At each block it multiplies the 10000×128 block of
  gathered rows by the 10000×1 block of edge coefficients, the coefficient of a row repeated along the row. Block t
  of the output is therefore block t of the whole-array function "row e times coefficient e", and the 85 blocks tile
  the 850000 rows, so the output array is that function.
-/
import proofs.«163460_j64836826300546_1_alg».proof.Proof.Gen.KernelIdeal.Frame
import proofs.«163460_j64836826300546_1_alg».proof.Proof.Spec
import Idealize.ShloMosaic.Lib.Pipeline.Value
import Idealize.ShloMosaic.Lib.ValueIdx
import Idealize.ShloMosaic.Lib.ValueLayout

set_option maxRecDepth 16384

noncomputable section

namespace Cert.Gcn.Scale4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The gathered rows and the coefficient column as the region finds them, at their literal types. -/
abbrev gArr (c : Dev nD) : FVec Ideal S850000x128 .f32 := V c main_v55
abbrev nArr (c : Dev nD) : FVec Ideal S850000x1 .f32 := V c main_v56

theorem hz : (![0, 0] : Fin 2 → Nat) = fun _ => 0 := funext fun a => by fin_cases a <;> rfl

/-- The body's value at row p, column q: the gathered entry times the row's coefficient. -/
theorem pay_apply (n : Vec Ideal S10000x1 .f32) (g : Vec Ideal S10000x128 .f32) (p : Fin 10000) (q : Fin 128) :
    k4_pay1 (F := Ideal) n g (ix2 p q) = g (ix2 p q) * n (ix2 p 0) := by
  unfold k4_pay1
  simp only [shapeCast_self]
  show g (ix2 p q) * broadcastTo S10000x128 n broadcasts_S10000x1_S10000x128 (ix2 p q) = _
  congr 1
  exact broadcastTo_apply n broadcasts_S10000x1_S10000x128 (ix2 p q) (ix2 p 0) (fun a => by
    match a with
    | ⟨0, _⟩ => rfl
    | ⟨1, _⟩ => rfl)

/-- The three index maps over the 85 points: every window's block row is the point's number, its block column 0. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is block t of the whole-array function. -/
theorem flushed_eq (c : Dev nD) (t : Fin cfg4.N) :
    (dat4 (F := Ideal) V c).flushed 2 t
      = ((cfg4.win 2).blk t).view.read (Elt Ideal) (scale128 (gArr V c) (nArr V c)) := by
  show (cfg4.win 2).cut (grid4.coords t) ((dat4 V c).after 2 t) = _
  rw [after4_2]
  unfold out4_2
  rw [View.canon_unit_zero hz]
  simp only [View.ld_unit_zero (S := S10000x128) hz, View.ld_unit_zero (S := S10000x1) hz]
  obtain ⟨e0, e1, e2, e3, e4, e5⟩ := idx_facts t
  funext j
  obtain ⟨p, q, rfl⟩ : ∃ (p : Fin 10000) (q : Fin 128), j = ix2 p q := ⟨j 0, j 1, eq_ix2 j⟩
  show k4_pay1 (iblk4 V c 1 t) (iblk4 V c 0 t) (ix2 p q)
    = scale128 (gArr V c) (nArr V c) (((cfg4.win 2).blk t).view.emb (ix2 p q))
  refine (pay_apply (iblk4 V c 1 t) (iblk4 V c 0 t) p q).trans ?_
  unfold scale128
  show gArr V c (((cfg4.win 0).blk t).view.emb (ix2 p q)) * nArr V c (((cfg4.win 1).blk t).view.emb (ix2 p 0))
    = gArr V c (((cfg4.win 2).blk t).view.emb (ix2 p q))
      * nArr V c (ix2 ((((cfg4.win 2).blk t).view.emb (ix2 p q)) 0) 0)
  have h0 : ((cfg4.win 0).blk t).view.emb (ix2 p q) = ((cfg4.win 2).blk t).view.emb (ix2 p q) := by
    funext a; apply Fin.ext
    match a with
    | ⟨0, _⟩ => show win4_0.index t (0 : Fin 2) * 10000 + 1 * p.val = win4_2.index t (0 : Fin 2) * 10000 + 1 * p.val; omega
    | ⟨1, _⟩ => show win4_0.index t (1 : Fin 2) * 128 + 1 * q.val = win4_2.index t (1 : Fin 2) * 128 + 1 * q.val; omega
  rw [h0]
  refine congrArg (fun z => gArr V c (((cfg4.win 2).blk t).view.emb (ix2 p q)) * z)
    (congrArg (nArr V c) (funext fun a => Fin.ext ?_))
  match a with
  | ⟨0, _⟩ => show win4_1.index t (0 : Fin 2) * 10000 + 1 * p.val = win4_2.index t (0 : Fin 2) * 10000 + 1 * p.val; omega
  | ⟨1, _⟩ => show win4_1.index t (1 : Fin 2) * 1 + 1 * 0 = 0; omega

/-- An index of the output array lies in point t's block iff each coordinate lies in the block's range. -/
theorem mem_blk (t : Fin cfg4.N) (i : S850000x128.Idx) :
    i ∈ ((cfg4.win 2).blk t).view.set ↔ ∀ a : Fin 2, win4_2.index t a * S10000x128.size a ≤ (i a).val
      ∧ (i a).val < win4_2.index t a * S10000x128.size a + S10000x128.size a := by
  show i ∈ ((View.whole main_v57).slice (win4_2.rect t)).set ↔ _
  rw [View.set_slice_whole, Rect.mem_set_unit]
  exact Iff.rfl

/-- Row r of the output lies in the block of point r / 10000: the 85 blocks tile the 850000 rows. -/
theorem cover (i : S850000x128.Idx) :
    ∃ t : Fin cfg4.N, (cfg4.win 2).flush t = true ∧ i ∈ ((cfg4.win 2).blk t).view.set := by
  have hi0 : (i 0).val < 850000 := (i 0).isLt
  have hi1 : (i 1).val < 128 := (i 1).isLt
  have hN : (i 0).val / 10000 < cfg4.N := by show (i 0).val / 10000 < grid4.N; rw [N_4]; omega
  obtain ⟨e0, e1, e2, e3, e4, e5⟩ := idx_facts ⟨(i 0).val / 10000, hN⟩
  refine ⟨⟨(i 0).val / 10000, hN⟩, flush4_2 _, ?_⟩
  rw [mem_blk]
  intro a
  match a with
  | ⟨0, _⟩ =>
    show win4_2.index ⟨(i 0).val / 10000, hN⟩ (0 : Fin 2) * 10000 ≤ (i 0).val
      ∧ (i 0).val < win4_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win4_2.index ⟨(i 0).val / 10000, hN⟩ (1 : Fin 2) * 128 ≤ (i 1).val
      ∧ (i 1).val < win4_2.index ⟨(i 0).val / 10000, hN⟩ (1 : Fin 2) * 128 + 128
    rw [e5]; omega

/-- The output array of the region, whatever contents it is entered at: row e of the gathered rows times
    coefficient e. -/
theorem arr (c : Dev nD) :
    (dat4 (F := Ideal) V c).arrAt 2 cfg4.N = scale128 (V c main_v55) (V c main_v56) :=
  (dat4 V c).arrAt_eq_of_cover 2 _ (fun t _ => flushed_eq V c t) cover

end Cert.Gcn.Scale4

end
-- ==== Proof.RegScale7.lean ====
/-
  The scaling region of the second layer, as one function of whole arrays.

  The region walks the 850000 edges in 85 blocks of 10000 rows. At each block it multiplies the 10000×64 block of
  gathered rows by the 10000×1 block of edge coefficients, the coefficient of a row repeated along the row. Block t
  of the output is therefore block t of the whole-array function "row e times coefficient e", and the 85 blocks tile
  the 850000 rows, so the output array is that function.
-/
import proofs.«163460_j64836826300546_1_alg».proof.Proof.Gen.KernelIdeal.Frame
import proofs.«163460_j64836826300546_1_alg».proof.Proof.Spec
import Idealize.ShloMosaic.Lib.Pipeline.Value
import Idealize.ShloMosaic.Lib.ValueIdx
import Idealize.ShloMosaic.Lib.ValueLayout

set_option maxRecDepth 16384

noncomputable section

namespace Cert.Gcn.Scale7

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The gathered rows and the coefficient column as the region finds them, at their literal types. -/
abbrev gArr (c : Dev nD) : FVec Ideal S850000x64 .f32 := V c main_v70
abbrev nArr (c : Dev nD) : FVec Ideal S850000x1 .f32 := V c main_v71

theorem hz : (![0, 0] : Fin 2 → Nat) = fun _ => 0 := funext fun a => by fin_cases a <;> rfl

/-- The body's value at row p, column q: the gathered entry times the row's coefficient. -/
theorem pay_apply (n : Vec Ideal S10000x1 .f32) (g : Vec Ideal S10000x64 .f32) (p : Fin 10000) (q : Fin 64) :
    k7_pay1 (F := Ideal) n g (ix2 p q) = g (ix2 p q) * n (ix2 p 0) := by
  unfold k7_pay1
  simp only [shapeCast_self]
  show g (ix2 p q) * broadcastTo S10000x64 n broadcasts_S10000x1_S10000x64 (ix2 p q) = _
  congr 1
  exact broadcastTo_apply n broadcasts_S10000x1_S10000x64 (ix2 p q) (ix2 p 0) (fun a => by
    match a with
    | ⟨0, _⟩ => rfl
    | ⟨1, _⟩ => rfl)

/-- The three index maps over the 85 points: every window's block row is the point's number, its block column 0. -/
theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

/-- What point t writes back is block t of the whole-array function. -/
theorem flushed_eq (c : Dev nD) (t : Fin cfg7.N) :
    (dat7 (F := Ideal) V c).flushed 2 t
      = ((cfg7.win 2).blk t).view.read (Elt Ideal) (scale64 (gArr V c) (nArr V c)) := by
  show (cfg7.win 2).cut (grid7.coords t) ((dat7 V c).after 2 t) = _
  rw [after7_2]
  unfold out7_2
  rw [View.canon_unit_zero hz]
  simp only [View.ld_unit_zero (S := S10000x64) hz, View.ld_unit_zero (S := S10000x1) hz]
  obtain ⟨e0, e1, e2, e3, e4, e5⟩ := idx_facts t
  funext j
  obtain ⟨p, q, rfl⟩ : ∃ (p : Fin 10000) (q : Fin 64), j = ix2 p q := ⟨j 0, j 1, eq_ix2 j⟩
  show k7_pay1 (iblk7 V c 1 t) (iblk7 V c 0 t) (ix2 p q)
    = scale64 (gArr V c) (nArr V c) (((cfg7.win 2).blk t).view.emb (ix2 p q))
  refine (pay_apply (iblk7 V c 1 t) (iblk7 V c 0 t) p q).trans ?_
  unfold scale64
  show gArr V c (((cfg7.win 0).blk t).view.emb (ix2 p q)) * nArr V c (((cfg7.win 1).blk t).view.emb (ix2 p 0))
    = gArr V c (((cfg7.win 2).blk t).view.emb (ix2 p q))
      * nArr V c (ix2 ((((cfg7.win 2).blk t).view.emb (ix2 p q)) 0) 0)
  have h0 : ((cfg7.win 0).blk t).view.emb (ix2 p q) = ((cfg7.win 2).blk t).view.emb (ix2 p q) := by
    funext a; apply Fin.ext
    match a with
    | ⟨0, _⟩ => show win7_0.index t (0 : Fin 2) * 10000 + 1 * p.val = win7_2.index t (0 : Fin 2) * 10000 + 1 * p.val; omega
    | ⟨1, _⟩ => show win7_0.index t (1 : Fin 2) * 64 + 1 * q.val = win7_2.index t (1 : Fin 2) * 64 + 1 * q.val; omega
  rw [h0]
  refine congrArg (fun z => gArr V c (((cfg7.win 2).blk t).view.emb (ix2 p q)) * z)
    (congrArg (nArr V c) (funext fun a => Fin.ext ?_))
  match a with
  | ⟨0, _⟩ => show win7_1.index t (0 : Fin 2) * 10000 + 1 * p.val = win7_2.index t (0 : Fin 2) * 10000 + 1 * p.val; omega
  | ⟨1, _⟩ => show win7_1.index t (1 : Fin 2) * 1 + 1 * 0 = 0; omega

/-- An index of the output array lies in point t's block iff each coordinate lies in the block's range. -/
theorem mem_blk (t : Fin cfg7.N) (i : S850000x64.Idx) :
    i ∈ ((cfg7.win 2).blk t).view.set ↔ ∀ a : Fin 2, win7_2.index t a * S10000x64.size a ≤ (i a).val
      ∧ (i a).val < win7_2.index t a * S10000x64.size a + S10000x64.size a := by
  show i ∈ ((View.whole main_v72).slice (win7_2.rect t)).set ↔ _
  rw [View.set_slice_whole, Rect.mem_set_unit]
  exact Iff.rfl

/-- Row r of the output lies in the block of point r / 10000: the 85 blocks tile the 850000 rows. -/
theorem cover (i : S850000x64.Idx) :
    ∃ t : Fin cfg7.N, (cfg7.win 2).flush t = true ∧ i ∈ ((cfg7.win 2).blk t).view.set := by
  have hi0 : (i 0).val < 850000 := (i 0).isLt
  have hi1 : (i 1).val < 64 := (i 1).isLt
  have hN : (i 0).val / 10000 < cfg7.N := by show (i 0).val / 10000 < grid7.N; rw [N_7]; omega
  obtain ⟨e0, e1, e2, e3, e4, e5⟩ := idx_facts ⟨(i 0).val / 10000, hN⟩
  refine ⟨⟨(i 0).val / 10000, hN⟩, flush7_2 _, ?_⟩
  rw [mem_blk]
  intro a
  match a with
  | ⟨0, _⟩ =>
    show win7_2.index ⟨(i 0).val / 10000, hN⟩ (0 : Fin 2) * 10000 ≤ (i 0).val
      ∧ (i 0).val < win7_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win7_2.index ⟨(i 0).val / 10000, hN⟩ (1 : Fin 2) * 64 ≤ (i 1).val
      ∧ (i 1).val < win7_2.index ⟨(i 0).val / 10000, hN⟩ (1 : Fin 2) * 64 + 64
    rw [e5]; omega

/-- The output array of the region, whatever contents it is entered at: row e of the gathered rows times
    coefficient e. -/
theorem arr (c : Dev nD) :
    (dat7 (F := Ideal) V c).arrAt 2 cfg7.N = scale64 (V c main_v70) (V c main_v71) :=
  (dat7 V c).arrAt_eq_of_cover 2 _ (fun t _ => flushed_eq V c t) cover

end Cert.Gcn.Scale7

end
-- ==== Proof.RegBias5.lean ====
/-
  The bias and the cut at zero of the first layer, as one function of whole arrays.

  The region walks the 50000 rows in 10 blocks of 5000 rows. At each block it takes the 5000×128 block of the summed
  rows and the whole 1×128 bias row (the same single block at every point), adds the bias row to every row of the
  block, and replaces every negative entry by zero (the maximum with the constant zero). Entry (p, q) of block t of
  the output depends only on entry (5000 t + p, q) of the input array and on entry (0, q) of the bias row. Block t of
  the output is therefore block t of the whole-array function "entry plus the bias of its column, cut at zero", and
  the 10 blocks tile the 50000 rows, so the output array is that function.
-/
import proofs.«163460_j64836826300546_1_alg».proof.Proof.Gen.KernelIdeal.Frame
import proofs.«163460_j64836826300546_1_alg».proof.Proof.Spec
import Idealize.ShloMosaic.Lib.Pipeline.Value
import Idealize.ShloMosaic.Lib.ValueIdx
import Idealize.ShloMosaic.Lib.ValueLayout

set_option maxRecDepth 16384

noncomputable section

namespace Cert.Gcn.Bias5

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The summed rows and the bias row as the region finds them, at their literal types. -/
abbrev aArr (c : Dev nD) : FVec Ideal S50000x128 .f32 := V c main_v60
abbrev bArr (c : Dev nD) : FVec Ideal S1x128 .f32 := V c main_v61

theorem hz : (![0, 0] : Fin 2 → Nat) = fun _ => 0 := funext fun a => by fin_cases a <;> rfl

/-- The body's value at row p, column q: the entry plus the bias of column q, cut at zero. -/
theorem pay_apply (a : Vec Ideal S5000x128 .f32) (b : Vec Ideal S1x128 .f32) (p : Fin 5000) (q : Fin 128) :
    k5_pay1 (F := Ideal) a b (ix2 p q)
      = max (a (ix2 p q) + b (ix2 0 q)) (Ideal.ofBits .f32 0x00000000#32) := by
  unfold k5_pay1
  simp only [shapeCast_self]
  have hb : broadcastTo S5000x128 b broadcasts_S1x128_S5000x128 (ix2 p q) = b (ix2 0 q) :=
    broadcastTo_apply b broadcasts_S1x128_S5000x128 (ix2 p q) (ix2 0 q) (fun r => by
      match r with
      | ⟨0, _⟩ => rfl
      | ⟨1, _⟩ => rfl)
  show max (a (ix2 p q) + broadcastTo S5000x128 b broadcasts_S1x128_S5000x128 (ix2 p q))
      (Ideal.ofBits .f32 0x00000000#32) = _
  rw [hb]

/-- The three index maps over the 10 points: the block row of the input and of the output is the point's number,
    the bias row's one block is block (0, 0) at every point, and every block column is 0. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of the whole-array function. -/
theorem flushed_eq (c : Dev nD) (t : Fin cfg5.N) :
    (dat5 (F := Ideal) V c).flushed 2 t
      = ((cfg5.win 2).blk t).view.read (Elt Ideal) (biasRelu128 (aArr V c) (bArr V c)) := by
  show (cfg5.win 2).cut (grid5.coords t) ((dat5 V c).after 2 t) = _
  rw [after5_2]
  unfold out5_2
  rw [View.canon_unit_zero hz]
  simp only [View.ld_unit_zero (S := S5000x128) hz, View.ld_unit_zero (S := S1x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k5_pay1 (iblk5 V c 0 t) (iblk5 V c 1 t) (ix2 p q)
    = biasRelu128 (aArr V c) (bArr V c) (((cfg5.win 2).blk t).view.emb (ix2 p q))
  refine (pay_apply (iblk5 V c 0 t) (iblk5 V c 1 t) p q).trans ?_
  unfold biasRelu128
  show max (aArr V c (((cfg5.win 0).blk t).view.emb (ix2 p q))
        + bArr V c (((cfg5.win 1).blk t).view.emb (ix2 0 q))) (Ideal.ofBits .f32 0x00000000#32)
    = max (aArr V c (((cfg5.win 2).blk t).view.emb (ix2 p q))
        + bArr V c (ix2 0 ((((cfg5.win 2).blk t).view.emb (ix2 p q)) 1))) (Ideal.ofBits .f32 0x00000000#32)
  have h0 : ((cfg5.win 0).blk t).view.emb (ix2 p q) = ((cfg5.win 2).blk t).view.emb (ix2 p q) := by
    funext r; apply Fin.ext
    match r with
    | ⟨0, _⟩ => show win5_0.index t (0 : Fin 2) * 5000 + 1 * p.val = win5_2.index t (0 : Fin 2) * 5000 + 1 * p.val; omega
    | ⟨1, _⟩ => show win5_0.index t (1 : Fin 2) * 128 + 1 * q.val = win5_2.index t (1 : Fin 2) * 128 + 1 * q.val; omega
  rw [h0]
  refine congrArg (fun z => max (aArr V c (((cfg5.win 2).blk t).view.emb (ix2 p q)) + z)
      (Ideal.ofBits .f32 0x00000000#32))
    (congrArg (bArr V c) (funext fun r => Fin.ext ?_))
  match r with
  | ⟨0, _⟩ => show win5_1.index t (0 : Fin 2) * 1 + 1 * 0 = 0; omega
  | ⟨1, _⟩ => show win5_1.index t (1 : Fin 2) * 128 + 1 * q.val = win5_2.index t (1 : Fin 2) * 128 + 1 * q.val; omega

/-- An index of the output array lies in point t's block iff each coordinate lies in the block's range. -/
theorem mem_blk (t : Fin cfg5.N) (i : S50000x128.Idx) :
    i ∈ ((cfg5.win 2).blk t).view.set ↔ ∀ r : Fin 2, win5_2.index t r * S5000x128.size r ≤ (i r).val
      ∧ (i r).val < win5_2.index t r * S5000x128.size r + S5000x128.size r := by
  show i ∈ ((View.whole main_v62).slice (win5_2.rect t)).set ↔ _
  rw [View.set_slice_whole, Rect.mem_set_unit]
  exact Iff.rfl

/-- Row r of the output lies in the block of point r / 5000: the 10 blocks tile the 50000 rows. -/
theorem cover (i : S50000x128.Idx) :
    ∃ t : Fin cfg5.N, (cfg5.win 2).flush t = true ∧ i ∈ ((cfg5.win 2).blk t).view.set := by
  have hi0 : (i 0).val < 50000 := (i 0).isLt
  have hi1 : (i 1).val < 128 := (i 1).isLt
  have hN : (i 0).val / 5000 < cfg5.N := by show (i 0).val / 5000 < grid5.N; rw [N_5]; omega
  obtain ⟨e0, e1, e2, e3, e4, e5⟩ := idx_facts ⟨(i 0).val / 5000, hN⟩
  refine ⟨⟨(i 0).val / 5000, hN⟩, flush5_2 _, ?_⟩
  rw [mem_blk]
  intro r
  match r with
  | ⟨0, _⟩ =>
    show win5_2.index ⟨(i 0).val / 5000, hN⟩ (0 : Fin 2) * 5000 ≤ (i 0).val
      ∧ (i 0).val < win5_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win5_2.index ⟨(i 0).val / 5000, hN⟩ (1 : Fin 2) * 128 ≤ (i 1).val
      ∧ (i 1).val < win5_2.index ⟨(i 0).val / 5000, hN⟩ (1 : Fin 2) * 128 + 128
    rw [e5]; omega

/-- The output array of the region, whatever contents it is entered at: every entry of the summed rows plus the
    bias of its column, cut at zero. -/
theorem arr (c : Dev nD) :
    (dat5 (F := Ideal) V c).arrAt 2 cfg5.N = biasRelu128 (V c main_v60) (V c main_v61) :=
  (dat5 V c).arrAt_eq_of_cover 2 _ (fun t _ => flushed_eq V c t) cover

end Cert.Gcn.Bias5

end
-- ==== Proof.RegBias8.lean ====
/-
  The bias of the second layer, as one function of whole arrays.

  The region walks the 50000 rows in 10 blocks of 5000 rows. At each block it takes the 5000×64 block of the summed
  rows and the whole 1×64 bias row (the same single block at every point) and adds the bias row to every row of the
  block; nothing is cut off in this layer. Entry (p, q) of block t of the output depends only on entry
  (5000 t + p, q) of the input array and on entry (0, q) of the bias row. Block t of the output is therefore block t
  of the whole-array function "entry plus the bias of its column", and the 10 blocks tile the 50000 rows, so the
  output array is that function.
-/
import proofs.«163460_j64836826300546_1_alg».proof.Proof.Gen.KernelIdeal.Frame
import proofs.«163460_j64836826300546_1_alg».proof.Proof.Spec
import Idealize.ShloMosaic.Lib.Pipeline.Value
import Idealize.ShloMosaic.Lib.ValueIdx
import Idealize.ShloMosaic.Lib.ValueLayout

set_option maxRecDepth 16384

noncomputable section

namespace Cert.Gcn.Bias8

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The summed rows and the bias row as the region finds them, at their literal types. -/
abbrev aArr (c : Dev nD) : FVec Ideal S50000x64 .f32 := V c main_v75
abbrev bArr (c : Dev nD) : FVec Ideal S1x64 .f32 := V c main_v76

theorem hz : (![0, 0] : Fin 2 → Nat) = fun _ => 0 := funext fun a => by fin_cases a <;> rfl

/-- The body's value at row p, column q: the entry plus the bias of column q. -/
theorem pay_apply (a : Vec Ideal S5000x64 .f32) (b : Vec Ideal S1x64 .f32) (p : Fin 5000) (q : Fin 64) :
    k8_pay1 (F := Ideal) a b (ix2 p q) = a (ix2 p q) + b (ix2 0 q) := by
  unfold k8_pay1
  simp only [shapeCast_self]
  have hb : broadcastTo S5000x64 b broadcasts_S1x64_S5000x64 (ix2 p q) = b (ix2 0 q) :=
    broadcastTo_apply b broadcasts_S1x64_S5000x64 (ix2 p q) (ix2 0 q) (fun r => by
      match r with
      | ⟨0, _⟩ => rfl
      | ⟨1, _⟩ => rfl)
  show a (ix2 p q) + broadcastTo S5000x64 b broadcasts_S1x64_S5000x64 (ix2 p q) = _
  rw [hb]

/-- The three index maps over the 10 points: the block row of the input and of the output is the point's number,
    the bias row's one block is block (0, 0) at every point, and every block column is 0. -/
theorem idx_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- What point t writes back is block t of the whole-array function. -/
theorem flushed_eq (c : Dev nD) (t : Fin cfg8.N) :
    (dat8 (F := Ideal) V c).flushed 2 t
      = ((cfg8.win 2).blk t).view.read (Elt Ideal) (bias64 (aArr V c) (bArr V c)) := by
  show (cfg8.win 2).cut (grid8.coords t) ((dat8 V c).after 2 t) = _
  rw [after8_2]
  unfold out8_2
  rw [View.canon_unit_zero hz]
  simp only [View.ld_unit_zero (S := S5000x64) hz, View.ld_unit_zero (S := S1x64) hz]
  obtain ⟨e0, e1, e2, e3, e4, e5⟩ := idx_facts t
  funext j
  obtain ⟨p, q, rfl⟩ : ∃ (p : Fin 5000) (q : Fin 64), j = ix2 p q := ⟨j 0, j 1, eq_ix2 j⟩
  show k8_pay1 (iblk8 V c 0 t) (iblk8 V c 1 t) (ix2 p q)
    = bias64 (aArr V c) (bArr V c) (((cfg8.win 2).blk t).view.emb (ix2 p q))
  refine (pay_apply (iblk8 V c 0 t) (iblk8 V c 1 t) p q).trans ?_
  unfold bias64
  show aArr V c (((cfg8.win 0).blk t).view.emb (ix2 p q)) + bArr V c (((cfg8.win 1).blk t).view.emb (ix2 0 q))
    = aArr V c (((cfg8.win 2).blk t).view.emb (ix2 p q))
      + bArr V c (ix2 0 ((((cfg8.win 2).blk t).view.emb (ix2 p q)) 1))
  have h0 : ((cfg8.win 0).blk t).view.emb (ix2 p q) = ((cfg8.win 2).blk t).view.emb (ix2 p q) := by
    funext r; apply Fin.ext
    match r with
    | ⟨0, _⟩ => show win8_0.index t (0 : Fin 2) * 5000 + 1 * p.val = win8_2.index t (0 : Fin 2) * 5000 + 1 * p.val; omega
    | ⟨1, _⟩ => show win8_0.index t (1 : Fin 2) * 64 + 1 * q.val = win8_2.index t (1 : Fin 2) * 64 + 1 * q.val; omega
  rw [h0]
  refine congrArg (fun z => aArr V c (((cfg8.win 2).blk t).view.emb (ix2 p q)) + z)
    (congrArg (bArr V c) (funext fun r => Fin.ext ?_))
  match r with
  | ⟨0, _⟩ => show win8_1.index t (0 : Fin 2) * 1 + 1 * 0 = 0; omega
  | ⟨1, _⟩ => show win8_1.index t (1 : Fin 2) * 64 + 1 * q.val = win8_2.index t (1 : Fin 2) * 64 + 1 * q.val; omega

/-- An index of the output array lies in point t's block iff each coordinate lies in the block's range. -/
theorem mem_blk (t : Fin cfg8.N) (i : S50000x64.Idx) :
    i ∈ ((cfg8.win 2).blk t).view.set ↔ ∀ r : Fin 2, win8_2.index t r * S5000x64.size r ≤ (i r).val
      ∧ (i r).val < win8_2.index t r * S5000x64.size r + S5000x64.size r := by
  show i ∈ ((View.whole main_v77).slice (win8_2.rect t)).set ↔ _
  rw [View.set_slice_whole, Rect.mem_set_unit]
  exact Iff.rfl

/-- Row r of the output lies in the block of point r / 5000: the 10 blocks tile the 50000 rows. -/
theorem cover (i : S50000x64.Idx) :
    ∃ t : Fin cfg8.N, (cfg8.win 2).flush t = true ∧ i ∈ ((cfg8.win 2).blk t).view.set := by
  have hi0 : (i 0).val < 50000 := (i 0).isLt
  have hi1 : (i 1).val < 64 := (i 1).isLt
  have hN : (i 0).val / 5000 < cfg8.N := by show (i 0).val / 5000 < grid8.N; rw [N_8]; omega
  obtain ⟨e0, e1, e2, e3, e4, e5⟩ := idx_facts ⟨(i 0).val / 5000, hN⟩
  refine ⟨⟨(i 0).val / 5000, hN⟩, flush8_2 _, ?_⟩
  rw [mem_blk]
  intro r
  match r with
  | ⟨0, _⟩ =>
    show win8_2.index ⟨(i 0).val / 5000, hN⟩ (0 : Fin 2) * 5000 ≤ (i 0).val
      ∧ (i 0).val < win8_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win8_2.index ⟨(i 0).val / 5000, hN⟩ (1 : Fin 2) * 64 ≤ (i 1).val
      ∧ (i 1).val < win8_2.index ⟨(i 0).val / 5000, hN⟩ (1 : Fin 2) * 64 + 64
    rw [e5]; omega

/-- The output array of the region, whatever contents it is entered at: every entry of the summed rows plus the
    bias of its column. -/
theorem arr (c : Dev nD) :
    (dat8 (F := Ideal) V c).arrAt 2 cfg8.N = bias64 (V c main_v75) (V c main_v76) :=
  (dat8 V c).arrAt_eq_of_cover 2 _ (fun t _ => flushed_eq V c t) cover

end Cert.Gcn.Bias8

end
-- ==== Proof.Walk.lean ====
/- Buffers that the regions and host stretches between two boundaries of @main leave alone.
   The contents of the TensorCore's buffers at each boundary of @main are a fold from the launch memory: a host
   stretch replaces the buffers its operations write and keeps every other one; a kernel region replaces its
   output array by the fold of its write-backs and keeps its two input arrays and every buffer that is none of
   its three arrays. Each statement below follows one buffer backwards from a later boundary to an earlier one
   (or to the launch memory), one stretch or region at a time; at every step the buffer is either not written
   by the stretch, or none of the region's arrays, or an input array of the region. -/
import proofs.«163460_j64836826300546_1_alg».proof.Proof.Gen.KernelIdeal.Frame
import Idealize.ShloMosaic.Lib.StableHlo.Run

set_option maxRecDepth 16384

noncomputable section

namespace Cert.Gcn.Walk

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- One step back through a host stretch: the stretch's operations each write one reference, listed by unfolding
    the stretch, and the buffer in hand differs from every one of them, so the stretch leaves it as it was. -/
local macro "through_host " ops:ident : tactic =>
  `(tactic| refine (StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))).trans ?_)

set_option hygiene false in
/-- One step back through a kernel region whose three arrays are all other buffers: outside its arrays the
    region's exit contents are its entry contents. -/
local macro "past_region " ne:ident : tactic =>
  `(tactic| refine ($ne:ident m ρ c _ (by decide)).trans ?_)

set_option hygiene false in
/-- One step back through a kernel region that reads the buffer through input window w: at exit an array holds
    the fold of its window's write-backs, an input window has none, and the entry contents of the array are the
    entry valuation read at it. -/
local macro "input_of_region " arr:ident dat:ident aeq:ident V:ident w:num : tactic =>
  `(tactic| refine (($arr:ident m ρ c $w).trans ((($dat:ident ($V:ident m ρ) c).arrAt_in $w rfl _).trans
      ($aeq:ident ($V:ident m ρ) c $w))).trans ?_)

theorem W9_arg0 (c : Dev nD) : W9 m ρ c (Proc.devRef .tc main_arg0) = m ((c : Thread nD τ).loc main_arg0) := by
  through_host hostOps3
  past_region W8_of_ne
  through_host hostOps2
  past_region W6_of_ne
  through_host hostOps1
  input_of_region W4_arr dat0 A_eq0 V3 0
  through_host hostOps0_2
  through_host hostOps0_1
  through_host hostOps0
  rfl

theorem W9_arg2 (c : Dev nD) : W9 m ρ c (Proc.devRef .tc main_arg2) = m ((c : Thread nD τ).loc main_arg2) := by
  through_host hostOps3
  past_region W8_of_ne
  through_host hostOps2
  past_region W6_of_ne
  through_host hostOps1
  input_of_region W4_arr dat0 A_eq0 V3 1
  through_host hostOps0_2
  through_host hostOps0_1
  through_host hostOps0
  rfl

theorem W10_v5 (c : Dev nD) : W10 m ρ c (Proc.devRef .tc main_v5) = W3 m ρ c (Proc.devRef .tc main_v5) := by
  past_region W10_of_ne
  through_host hostOps3
  past_region W8_of_ne
  through_host hostOps2
  past_region W6_of_ne
  through_host hostOps1
  past_region W4_of_ne
  rfl

theorem W10_v31 (c : Dev nD) : W10 m ρ c (Proc.devRef .tc main_v31) = W3 m ρ c (Proc.devRef .tc main_v31) := by
  past_region W10_of_ne
  through_host hostOps3
  past_region W8_of_ne
  through_host hostOps2
  past_region W6_of_ne
  through_host hostOps1
  past_region W4_of_ne
  rfl

theorem W12_v6 (c : Dev nD) : W12 m ρ c (Proc.devRef .tc main_v6) = W3 m ρ c (Proc.devRef .tc main_v6) := by
  past_region W12_of_ne
  through_host hostOps4
  past_region W10_of_ne
  through_host hostOps3
  past_region W8_of_ne
  through_host hostOps2
  past_region W6_of_ne
  through_host hostOps1
  past_region W4_of_ne
  rfl

theorem W12_arg3 (c : Dev nD) : W12 m ρ c (Proc.devRef .tc main_arg3) = m ((c : Thread nD τ).loc main_arg3) := by
  past_region W12_of_ne
  through_host hostOps4
  past_region W10_of_ne
  through_host hostOps3
  past_region W8_of_ne
  through_host hostOps2
  past_region W6_of_ne
  through_host hostOps1
  past_region W4_of_ne
  through_host hostOps0_2
  through_host hostOps0_1
  through_host hostOps0
  rfl

theorem W14_arg4 (c : Dev nD) : W14 m ρ c (Proc.devRef .tc main_arg4) = m ((c : Thread nD τ).loc main_arg4) := by
  past_region W14_of_ne
  through_host hostOps5
  past_region W12_of_ne
  through_host hostOps4
  past_region W10_of_ne
  through_host hostOps3
  past_region W8_of_ne
  through_host hostOps2
  past_region W6_of_ne
  through_host hostOps1
  past_region W4_of_ne
  through_host hostOps0_2
  through_host hostOps0_1
  through_host hostOps0
  rfl

theorem W15_v5 (c : Dev nD) : W15 m ρ c (Proc.devRef .tc main_v5) = W3 m ρ c (Proc.devRef .tc main_v5) := by
  past_region W15_of_ne
  past_region W14_of_ne
  through_host hostOps5
  past_region W12_of_ne
  through_host hostOps4
  exact W10_v5 m ρ c

theorem W15_v31 (c : Dev nD) : W15 m ρ c (Proc.devRef .tc main_v31) = W3 m ρ c (Proc.devRef .tc main_v31) := by
  past_region W15_of_ne
  past_region W14_of_ne
  through_host hostOps5
  past_region W12_of_ne
  through_host hostOps4
  exact W10_v31 m ρ c

theorem W17_v6 (c : Dev nD) : W17 m ρ c (Proc.devRef .tc main_v6) = W3 m ρ c (Proc.devRef .tc main_v6) := by
  past_region W17_of_ne
  through_host hostOps7
  past_region W15_of_ne
  past_region W14_of_ne
  through_host hostOps5
  exact W12_v6 m ρ c

theorem W17_arg5 (c : Dev nD) : W17 m ρ c (Proc.devRef .tc main_arg5) = m ((c : Thread nD τ).loc main_arg5) := by
  past_region W17_of_ne
  through_host hostOps7
  past_region W15_of_ne
  past_region W14_of_ne
  through_host hostOps5
  past_region W12_of_ne
  through_host hostOps4
  past_region W10_of_ne
  through_host hostOps3
  past_region W8_of_ne
  through_host hostOps2
  past_region W6_of_ne
  through_host hostOps1
  past_region W4_of_ne
  through_host hostOps0_2
  through_host hostOps0_1
  through_host hostOps0
  rfl

theorem W19_v62 (c : Dev nD) : W19 m ρ c (Proc.devRef .tc main_v62) = W14 m ρ c (Proc.devRef .tc main_v62) := by
  past_region W19_of_ne
  through_host hostOps8
  past_region W17_of_ne
  through_host hostOps7
  input_of_region W15_arr dat6 A_eq6 V14 0
  rfl

end Cert.Gcn.Walk

end
-- ==== Proof.HostReads.lean ====
/-
  The host operations between the regions, read back.

  Both programs apply the same host operations around the dense pieces: the edge coefficients (degrees summed per
  node, their inverse square roots gathered at both ends of every edge and multiplied with the edge weight), the
  gathering of the projected rows at the edges' source nodes, the summation of the scaled rows into the edges' target
  nodes, and the reshaping of a bias to a row. Each lemma here says: if the buffers a stretch reads hold the
  reference's stages, then the buffer it writes holds the reference's next stage. Nothing is computed: the two sides
  are the same operations applied to the same operands.
-/
import proofs.«163460_j64836826300546_1_alg».proof.Proof.Gen.KernelIdeal.Frame
import proofs.«163460_j64836826300546_1_alg».proof.Proof.Gen.ReferenceIdeal.Read
import Idealize.ShloMosaic.Lib.StableHlo.Run

set_option maxRecDepth 16384

noncomputable section

namespace Cert.Gcn.Host

open Cert.KernelIdeal Cert.KernelIdeal.Gen Idealize.ShloMosaic Idealize.ShloMosaic.TcCoe Idealize.SL.Sem Idealize.ShloMosaic.StableHlo
open Cert.ReferenceIdeal.Read (val_main_v5 val_main_v6 val_main_v31 val_main_v32 val_main_v39 val_main_v42 val_main_v45
  val_main_v49 val_main_v50 val_main_v57 val_main_v60 val_main_v63)

variable (m : (ℓ : Loc nD τ sig) → Buf (Elt Ideal) ℓ) (ρ : Dev nD → PrngReg)
variable (x0 : FVec Ideal S50000x128 .f32) (x1 : FVec Ideal S800000 .f32) (x2 : FVec Ideal S128x128 .f32)
  (x3 : FVec Ideal S128 .f32) (x4 : FVec Ideal S128x64 .f32) (x5 : FVec Ideal S64 .f32) (x6 : IVec S2x800000 32)

/-! ## Before the first region: the edges' source and target nodes and the edge coefficients -/

/-- The source node of every edge, self loops appended. -/
theorem W3_v5 (c : Dev nD) :
    W3 m ρ c (Proc.devRef .tc main_v5) = val_main_v5 (F := Ideal) (m ((c : Thread nD τ).loc main_arg6)) := by
  show StableHlo.after hostOps0_2 (StableHlo.after hostOps0_1 (StableHlo.after hostOps0 (W0 m ρ c))) (Proc.devRef .tc main_v5) = _
  after_results
  rfl

/-- The target node of every edge, self loops appended. -/
theorem W3_v6 (c : Dev nD) :
    W3 m ρ c (Proc.devRef .tc main_v6) = val_main_v6 (F := Ideal) (m ((c : Thread nD τ).loc main_arg6)) := by
  show StableHlo.after hostOps0_2 (StableHlo.after hostOps0_1 (StableHlo.after hostOps0 (W0 m ρ c))) (Proc.devRef .tc main_v6) = _
  after_results
  rfl

/-! ## First layer -/

/-- The projected rows gathered at the edges' source nodes. -/
theorem host4_v55 (c : Dev nD)
    (h48 : W10 m ρ c (Proc.devRef .tc main_v48) = val_main_v32 (F := Ideal) x0 x2)
    (h5 : W10 m ρ c (Proc.devRef .tc main_v5) = val_main_v5 (F := Ideal) x6) :
    W11 m ρ c (Proc.devRef .tc main_v55) = val_main_v39 (F := Ideal) x0 x2 x6 := by
  show StableHlo.after hostOps4 (W10 m ρ c) (Proc.devRef .tc main_v55) = _
  after_results
  rw [h48, h5]
  rfl

/-- The edge coefficients as a column. -/
theorem host4_v56 (c : Dev nD)
    (h31 : W10 m ρ c (Proc.devRef .tc main_v31) = val_main_v31 (F := Ideal) x1 x6) :
    W11 m ρ c (Proc.devRef .tc main_v56)
      = shapeCast S850000x1 (val_main_v31 (F := Ideal) x1 x6) shapeCasts_S850000_S850000x1 := by
  show StableHlo.after hostOps4 (W10 m ρ c) (Proc.devRef .tc main_v56) = _
  after_results
  rw [h31]
  rfl

/-- The scaled rows summed into the edges' target nodes. -/
theorem host5_v60 (c : Dev nD)
    (h57 : W12 m ρ c (Proc.devRef .tc main_v57) = val_main_v42 (F := Ideal) x0 x1 x2 x6)
    (h6 : W12 m ρ c (Proc.devRef .tc main_v6) = val_main_v6 (F := Ideal) x6) :
    W13 m ρ c (Proc.devRef .tc main_v60) = val_main_v45 (F := Ideal) x0 x1 x2 x6 := by
  show StableHlo.after hostOps5 (W12 m ρ c) (Proc.devRef .tc main_v60) = _
  after_results
  rw [h57, h6]
  rfl

/-- The first bias as a row. -/
theorem host5_v61 (c : Dev nD) (h3 : W12 m ρ c (Proc.devRef .tc main_arg3) = x3) :
    W13 m ρ c (Proc.devRef .tc main_v61) = shapeCast S1x128 x3 shapeCasts_S128_S1x128 := by
  show StableHlo.after hostOps5 (W12 m ρ c) (Proc.devRef .tc main_v61) = _
  after_results
  rw [h3]
  rfl

/-! ## Second layer -/

/-- The projected rows gathered at the edges' source nodes. -/
theorem host7_v70 (c : Dev nD)
    (h63 : W15 m ρ c (Proc.devRef .tc main_v63) = val_main_v50 (F := Ideal) x0 x1 x2 x3 x4 x6)
    (h5 : W15 m ρ c (Proc.devRef .tc main_v5) = val_main_v5 (F := Ideal) x6) :
    W16 m ρ c (Proc.devRef .tc main_v70) = val_main_v57 (F := Ideal) x0 x1 x2 x3 x4 x6 := by
  show StableHlo.after hostOps7 (W15 m ρ c) (Proc.devRef .tc main_v70) = _
  after_results
  rw [h63, h5]
  rfl

/-- The edge coefficients as a column. -/
theorem host7_v71 (c : Dev nD)
    (h31 : W15 m ρ c (Proc.devRef .tc main_v31) = val_main_v31 (F := Ideal) x1 x6) :
    W16 m ρ c (Proc.devRef .tc main_v71)
      = shapeCast S850000x1 (val_main_v31 (F := Ideal) x1 x6) shapeCasts_S850000_S850000x1 := by
  show StableHlo.after hostOps7 (W15 m ρ c) (Proc.devRef .tc main_v71) = _
  after_results
  rw [h31]
  rfl

/-- The scaled rows summed into the edges' target nodes. -/
theorem host8_v75 (c : Dev nD)
    (h72 : W17 m ρ c (Proc.devRef .tc main_v72) = val_main_v60 (F := Ideal) x0 x1 x2 x3 x4 x6)
    (h6 : W17 m ρ c (Proc.devRef .tc main_v6) = val_main_v6 (F := Ideal) x6) :
    W18 m ρ c (Proc.devRef .tc main_v75) = val_main_v63 (F := Ideal) x0 x1 x2 x3 x4 x6 := by
  show StableHlo.after hostOps8 (W17 m ρ c) (Proc.devRef .tc main_v75) = _
  after_results
  rw [h72, h6]
  rfl

/-- The second bias as a row. -/
theorem host8_v76 (c : Dev nD) (h5 : W17 m ρ c (Proc.devRef .tc main_arg5) = x5) :
    W18 m ρ c (Proc.devRef .tc main_v76) = shapeCast S1x64 x5 shapeCasts_S64_S1x64 := by
  show StableHlo.after hostOps8 (W17 m ρ c) (Proc.devRef .tc main_v76) = _
  after_results
  rw [h5]
  rfl

end Cert.Gcn.Host

end
-- ==== Proof.HostNorm.lean ====
/-
  The edge coefficients before the first region are the reference's.

  Before its first dense piece the program computes, on the host, the coefficient of every edge: the edges' source and
  target nodes with one self loop per node appended, the edge weights with a one appended for every self loop, the
  degree of every node (the weights summed into the edges' target nodes), the inverse square root of the degree where
  the degree is positive and zero elsewhere, and for every edge the product of that value at its source node, its
  weight, and that value at its target node. The program does this in three stretches of host operations (the
  degrees and their inverse square roots; the choice between the inverse square root and zero, which is a called
  function of three operations; the two gathers at the ends of every edge and the two products), and the reference
  runs the same operations on the same operands. Each lemma below says of one stretch, started from any buffer
  contents: if the buffers the stretch reads hold the reference's stages, the buffer it writes holds the reference's
  next stage, and a buffer it does not write keeps its contents. Nothing is computed: the two sides are the same
  operations applied to the same operands. Chaining the three stretches from the launch contents gives the statement.
-/
import proofs.«163460_j64836826300546_1_alg».proof.Proof.Gen.KernelIdeal.Frame
import proofs.«163460_j64836826300546_1_alg».proof.Proof.Gen.ReferenceIdeal.Read
import Idealize.ShloMosaic.Lib.StableHlo.Run

set_option maxRecDepth 16384

noncomputable section

namespace Cert.Gcn.HostNorm

open Cert.KernelIdeal Cert.KernelIdeal.Gen Idealize.ShloMosaic Idealize.ShloMosaic.TcCoe Idealize.SL.Sem Idealize.ShloMosaic.StableHlo
open Cert.ReferenceIdeal.Read (val_main_v31)
open Cert.ReferenceIdeal.Read (val_main_v5 val_main_v6 val_main_v8 val_main_v13 val_main_v14 val_main_cst_2 val_main_call0_v0
  val_main_call0_v1 val_main_v15)

variable (m : (ℓ : Loc nD τ sig) → Buf (Elt Ideal) ℓ) (ρ : Dev nD → PrngReg)

/-! ## First stretch: nodes of the edges, weights, degrees, inverse square roots

Each value is read off the stretch started from ANY contents V whose two argument buffers hold the edge weights x1
and the edge list x6. -/

section First
variable (V : Valuation τ sig (Elt Ideal)) (x1 : FVec Ideal S800000 .f32) (x6 : IVec S2x800000 32)

/-- The source node of every edge, self loops appended. -/
theorem first_v5 (h6 : V (Proc.devRef .tc main_arg6) = x6) :
    StableHlo.after hostOps0 V (Proc.devRef .tc main_v5) = val_main_v5 (F := Ideal) x6 := by
  after_results
  rw [h6]
  rfl

/-- The target node of every edge, self loops appended. -/
theorem first_v6 (h6 : V (Proc.devRef .tc main_arg6) = x6) :
    StableHlo.after hostOps0 V (Proc.devRef .tc main_v6) = val_main_v6 (F := Ideal) x6 := by
  after_results
  rw [h6]
  rfl

/-- The weight of every edge, a one for every self loop. -/
theorem first_v8 (h1 : V (Proc.devRef .tc main_arg1) = x1) :
    StableHlo.after hostOps0 V (Proc.devRef .tc main_v8) = val_main_v8 (F := Ideal) x1 := by
  after_results
  rw [h1]
  rfl

/-- Which nodes have a positive degree. -/
theorem first_v13 (h1 : V (Proc.devRef .tc main_arg1) = x1) (h6 : V (Proc.devRef .tc main_arg6) = x6) :
    StableHlo.after hostOps0 V (Proc.devRef .tc main_v13) = val_main_v13 (F := Ideal) x1 x6 := by
  after_results
  rw [h1, h6]
  rfl

/-- The inverse square root of every node's degree. -/
theorem first_v14 (h1 : V (Proc.devRef .tc main_arg1) = x1) (h6 : V (Proc.devRef .tc main_arg6) = x6) :
    StableHlo.after hostOps0 V (Proc.devRef .tc main_v14) = val_main_v14 (F := Ideal) x1 x6 := by
  after_results
  rw [h1, h6]
  rfl

/-- The zero that stands in where the degree is not positive. -/
theorem first_cst_2 : StableHlo.after hostOps0 V (Proc.devRef .tc main_cst_2) = val_main_cst_2 (F := Ideal) := by
  after_results
  rfl

end First

/-! ## Second stretch: the inverse square root where the degree is positive, zero elsewhere -/

/-! The called function names its buffers together with the type of the value each holds, and moves a value between
that type and the buffer's own type. The two types are the same type, so each move is the identity: a value moved
to a buffer's type and back is the value, and at the four buffers the function shares with its caller the single
move is the identity as well. -/

theorem ofBuf_toBuf {T : BufTy} (x : StableHlo.TRef sig T) (v : T.Contents (Elt Ideal)) : x.ofBuf (x.toBuf v) = v := by
  obtain ⟨r, h, hd, hs⟩ := x
  subst h
  rfl

theorem toBuf_v15 (h hd hs) (v : (⟨S50000, .f32⟩ : BufTy).Contents (Elt Ideal)) :
    (StableHlo.TRef.of (sig := sig) (T := ⟨S50000, .f32⟩) main_v15 h hd hs).toBuf v = v := rfl
theorem ofBuf_v13 (h hd hs) (v : (⟨S50000, .i1⟩ : BufTy).Contents (Elt Ideal)) :
    (StableHlo.TRef.of (sig := sig) (T := ⟨S50000, .i1⟩) main_v13 h hd hs).ofBuf v = v := rfl
theorem ofBuf_v14 (h hd hs) (v : (⟨S50000, .f32⟩ : BufTy).Contents (Elt Ideal)) :
    (StableHlo.TRef.of (sig := sig) (T := ⟨S50000, .f32⟩) main_v14 h hd hs).ofBuf v = v := rfl
theorem ofBuf_cst_2 (h hd hs) (v : (⟨S_, .f32⟩ : BufTy).Contents (Elt Ideal)) :
    (StableHlo.TRef.of (sig := sig) (T := ⟨S_, .f32⟩) main_cst_2 h hd hs).ofBuf v = v := rfl

section Second
variable (V : Valuation τ sig (Elt Ideal)) (x1 : FVec Ideal S800000 .f32) (x6 : IVec S2x800000 32)

/-- The chosen value of every node, from the test, the inverse square roots and the zero. -/
theorem second_v15
    (h13 : V (Proc.devRef .tc main_v13) = val_main_v13 (F := Ideal) x1 x6)
    (h14 : V (Proc.devRef .tc main_v14) = val_main_v14 (F := Ideal) x1 x6)
    (hc : V (Proc.devRef .tc main_cst_2) = val_main_cst_2 (F := Ideal)) :
    StableHlo.after hostOps0_1 V (Proc.devRef .tc main_v15) = val_main_v15 (F := Ideal) x1 x6 := by
  after_results
  rw [h13, h14, hc]
  rw [ofBuf_toBuf, ofBuf_toBuf, toBuf_v15, ofBuf_v13, ofBuf_v14, ofBuf_cst_2]
  unfold val_main_v15 val_main_call0_v1 val_main_call0_v0
  rfl

/-- The stretch writes none of the edges' source nodes, target nodes and weights. -/
theorem second_v5 : StableHlo.after hostOps0_1 V (Proc.devRef .tc main_v5) = V (Proc.devRef .tc main_v5) := by
  after_results
theorem second_v6 : StableHlo.after hostOps0_1 V (Proc.devRef .tc main_v6) = V (Proc.devRef .tc main_v6) := by
  after_results
theorem second_v8 : StableHlo.after hostOps0_1 V (Proc.devRef .tc main_v8) = V (Proc.devRef .tc main_v8) := by
  after_results

end Second

/-! ## Third stretch: the chosen values gathered at both ends of every edge, and the products -/

section Third
variable (V : Valuation τ sig (Elt Ideal)) (x1 : FVec Ideal S800000 .f32) (x6 : IVec S2x800000 32)

set_option maxHeartbeats 2000000 in
/-- The coefficient of every edge, from the nodes of the edges, the weights and the chosen values. -/
theorem third_v31
    (h5 : V (Proc.devRef .tc main_v5) = val_main_v5 (F := Ideal) x6)
    (h6 : V (Proc.devRef .tc main_v6) = val_main_v6 (F := Ideal) x6)
    (h8 : V (Proc.devRef .tc main_v8) = val_main_v8 (F := Ideal) x1)
    (h15 : V (Proc.devRef .tc main_v15) = val_main_v15 (F := Ideal) x1 x6) :
    StableHlo.after hostOps0_2 V (Proc.devRef .tc main_v31) = val_main_v31 (F := Ideal) x1 x6 := by
  after_results_simp
  rw [h5, h6, h8, h15]
  rfl

end Third

/-! ## The three stretches in a row, from the launch contents -/

/-- The coefficient of every edge. -/
theorem W3_v31 (c : Dev nD) :
    W3 m ρ c (Proc.devRef .tc main_v31)
      = val_main_v31 (F := Ideal) (m ((c : Thread nD τ).loc main_arg1)) (m ((c : Thread nD τ).loc main_arg6)) := by
  have a1 : W0 m ρ c (Proc.devRef .tc main_arg1) = m ((c : Thread nD τ).loc main_arg1) := rfl
  have a6 : W0 m ρ c (Proc.devRef .tc main_arg6) = m ((c : Thread nD τ).loc main_arg6) := rfl
  show StableHlo.after hostOps0_2 (W2 m ρ c) (Proc.devRef .tc main_v31) = _
  refine third_v31 (W2 m ρ c) _ _ ?_ ?_ ?_ ?_
  · exact (second_v5 (W1 m ρ c)).trans (first_v5 (W0 m ρ c) _ a6)
  · exact (second_v6 (W1 m ρ c)).trans (first_v6 (W0 m ρ c) _ a6)
  · exact (second_v8 (W1 m ρ c)).trans (first_v8 (W0 m ρ c) _ a1)
  · exact second_v15 (W1 m ρ c) _ _ (first_v13 (W0 m ρ c) _ _ a1 a6) (first_v14 (W0 m ρ c) _ _ a1 a6)
      (first_cst_2 (W0 m ρ c))

end Cert.Gcn.HostNorm

end
-- ==== Proof.Bridge.lean ====
/-
  The whole-array functions that name the kernel's regions are the reference's own stages, read index by index.

  The products: entry (p, q) of the reference's dot_general is the sum over k of the left operand at (p, k) times the
  right operand at (k, q), which is the named product's defining sum term by term. The scalings: the reference
  broadcasts the 850000 edge coefficients first to a column and then along the columns, so entry (p, q) of the
  broadcast is coefficient p; the named scaling reads the same coefficient from the vector recast as an 850000×1
  column, whose entry (p, 0) has row-major position p. The biases: the reference broadcasts the bias first to a
  row and then along the rows, so entry (p, q) of the broadcast is bias entry q; the named function reads the same entry
  from the vector recast as a 1×n row, whose entry (0, q) has row-major position q. The zero the first layer is cut
  at is the reference's scalar constant broadcast to every entry. Sums, products and maxima of arrays are entrywise.
-/
import proofs.«163460_j64836826300546_1_alg».proof.Proof.Gen.ReferenceIdeal.Read
import proofs.«163460_j64836826300546_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.Bridge

open Cert.ReferenceIdeal Cert.ReferenceIdeal.Read Idealize.ShloMosaic Idealize.ShloMosaic.ValueIdx

variable (x0 : FVec Ideal S50000x128 .f32) (x1 : FVec Ideal S800000 .f32) (x2 : FVec Ideal S128x128 .f32)
  (x3 : FVec Ideal S128 .f32) (x4 : FVec Ideal S128x64 .f32) (x5 : FVec Ideal S64 .f32) (x6 : IVec S2x800000 32)

/-- The left index of the first product at entry (p, q) and summand k is (p, k). -/
theorem lidx32 (p : Fin 50000) (q : Fin 128) (k : Fin 128) : lidx_main_v32 (ix2 p q) k = ix2 p k :=
  funext fun a => Fin.ext (by match a with | ⟨0, _⟩ => rfl | ⟨1, _⟩ => rfl)

/-- The right index of the first product at entry (p, q) and summand k is (k, q). -/
theorem ridx32 (p : Fin 50000) (q : Fin 128) (k : Fin 128) : ridx_main_v32 (ix2 p q) k = ix2 k q :=
  funext fun a => Fin.ext (by match a with | ⟨0, _⟩ => rfl | ⟨1, _⟩ => rfl)

/-- The left index of the second product at entry (p, q) and summand k is (p, k). -/
theorem lidx50 (p : Fin 50000) (q : Fin 64) (k : Fin 128) : lidx_main_v50 (ix2 p q) k = ix2 p k :=
  funext fun a => Fin.ext (by match a with | ⟨0, _⟩ => rfl | ⟨1, _⟩ => rfl)

/-- The right index of the second product at entry (p, q) and summand k is (k, q). -/
theorem ridx50 (p : Fin 50000) (q : Fin 64) (k : Fin 128) : ridx_main_v50 (ix2 p q) k = ix2 k q :=
  funext fun a => Fin.ext (by match a with | ⟨0, _⟩ => rfl | ⟨1, _⟩ => rfl)

/-- The first layer's product is the reference's dot_general. -/
theorem mm128_eq : mm128 x0 x2 = val_main_v32 (F := Ideal) x0 x2 := by
  funext i
  obtain ⟨p, q, rfl⟩ : ∃ (p : Fin 50000) (q : Fin 128), i = ix2 p q := ⟨i 0, i 1, eq_ix2 i⟩
  rw [val_main_v32_apply]
  unfold mm128
  refine Finset.sum_congr rfl fun k _ => ?_
  rw [lidx32, ridx32]

/-- The second layer's product, of the first layer's result, is the reference's dot_general. -/
theorem mm64_eq : mm64 (val_main_v49 (F := Ideal) x0 x1 x2 x3 x6) x4 = val_main_v50 (F := Ideal) x0 x1 x2 x3 x4 x6 := by
  funext i
  obtain ⟨p, q, rfl⟩ : ∃ (p : Fin 50000) (q : Fin 64), i = ix2 p q := ⟨i 0, i 1, eq_ix2 i⟩
  rw [val_main_v50_apply]
  unfold mm64
  refine Finset.sum_congr rfl fun k _ => ?_
  rw [lidx50, ridx50]

/-- A length-850000 vector recast as an 850000×1 column, read at row p, is the vector at p: both have row-major position p. -/
theorem col_apply (v : FVec Ideal S850000 .f32) (h : S850000.ShapeCasts S850000x1) (p : Fin 850000) :
    shapeCast S850000x1 v h (ix2 p 0) = v (ix1 p) :=
  shapeCast_apply v h (ix2 p 0) (ix1 p) (by
    rw [Shape.rowMajor_val_one, Shape.rowMajor_val_two]
    show p.val = p.val * 1 + 0
    omega)

/-- A length-128 vector recast as a 1×128 row, read at column q, is the vector at q. -/
theorem row128_apply (v : FVec Ideal S128 .f32) (h : S128.ShapeCasts S1x128) (q : Fin 128) :
    shapeCast S1x128 v h (ix2 0 q) = v (ix1 q) :=
  shapeCast_apply v h (ix2 0 q) (ix1 q) (by
    rw [Shape.rowMajor_val_one, Shape.rowMajor_val_two]
    show q.val = 0 * 128 + q.val
    omega)

/-- A length-64 vector recast as a 1×64 row, read at column q, is the vector at q. -/
theorem row64_apply (v : FVec Ideal S64 .f32) (h : S64.ShapeCasts S1x64) (q : Fin 64) :
    shapeCast S1x64 v h (ix2 0 q) = v (ix1 q) :=
  shapeCast_apply v h (ix2 0 q) (ix1 q) (by
    rw [Shape.rowMajor_val_one, Shape.rowMajor_val_two]
    show q.val = 0 * 64 + q.val
    omega)

/-- The two broadcasts of the coefficients (to a column, then along 128 columns) read entry (p, q) at coefficient p. -/
theorem idx41 (p : Fin 850000) (q : Fin 128) : idx_main_v40 (idx_main_v41 (ix2 p q)) = ix1 p :=
  funext fun a => Fin.ext (by match a with | ⟨0, _⟩ => rfl)

/-- The same along 64 columns. -/
theorem idx59 (p : Fin 850000) (q : Fin 64) : idx_main_v58 (idx_main_v59 (ix2 p q)) = ix1 p :=
  funext fun a => Fin.ext (by match a with | ⟨0, _⟩ => rfl)

/-- The two broadcasts of the first bias (to a row, then along 50000 rows) read entry (p, q) at bias entry q. -/
theorem idx47 (p : Fin 50000) (q : Fin 128) : idx_main_v46 (idx_main_v47 (ix2 p q)) = ix1 q :=
  funext fun a => Fin.ext (by match a with | ⟨0, _⟩ => rfl)

/-- The same for the second bias, of length 64. -/
theorem idx65 (p : Fin 50000) (q : Fin 64) : idx_main_v64 (idx_main_v65 (ix2 p q)) = ix1 q :=
  funext fun a => Fin.ext (by match a with | ⟨0, _⟩ => rfl)

/-- Scaling row e by coefficient e, the coefficients reshaped to a column, is the reference's product with the
    coefficients broadcast along the rows (width 128). -/
theorem scale128_eq (g : FVec Ideal S850000x128 .f32) (h : S850000.ShapeCasts S850000x1) :
    scale128 g (shapeCast S850000x1 (val_main_v31 (F := Ideal) x1 x6) h) = mulf g (val_main_v41 (F := Ideal) x1 x6) := by
  funext i
  obtain ⟨p, q, rfl⟩ : ∃ (p : Fin 850000) (q : Fin 128), i = ix2 p q := ⟨i 0, i 1, eq_ix2 i⟩
  rw [mulf_apply, val_main_v41_apply, val_main_v40_apply, idx41]
  show g (ix2 p q) * shapeCast S850000x1 (val_main_v31 (F := Ideal) x1 x6) h (ix2 p 0) = _
  rw [col_apply]

/-- The same at width 64. -/
theorem scale64_eq (g : FVec Ideal S850000x64 .f32) (h : S850000.ShapeCasts S850000x1) :
    scale64 g (shapeCast S850000x1 (val_main_v31 (F := Ideal) x1 x6) h) = mulf g (val_main_v59 (F := Ideal) x1 x6) := by
  funext i
  obtain ⟨p, q, rfl⟩ : ∃ (p : Fin 850000) (q : Fin 64), i = ix2 p q := ⟨i 0, i 1, eq_ix2 i⟩
  rw [mulf_apply, val_main_v59_apply, val_main_v58_apply, idx59]
  show g (ix2 p q) * shapeCast S850000x1 (val_main_v31 (F := Ideal) x1 x6) h (ix2 p 0) = _
  rw [col_apply]

/-- Adding the bias, reshaped to a row, and cutting at zero is the reference's sum with the broadcast bias followed
    by its maximum with the broadcast zero. -/
theorem biasRelu128_eq (a : FVec Ideal S50000x128 .f32) (h : S128.ShapeCasts S1x128) :
    biasRelu128 a (shapeCast S1x128 x3 h) = maximumf (addf a (val_main_v47 (F := Ideal) x3)) (val_main_call1_v0 (F := Ideal)) := by
  funext i
  obtain ⟨p, q, rfl⟩ : ∃ (p : Fin 50000) (q : Fin 128), i = ix2 p q := ⟨i 0, i 1, eq_ix2 i⟩
  rw [maximumf_apply, addf_apply, val_main_v47_apply, val_main_v46_apply, idx47, val_main_call1_v0_apply,
    val_main_call1_cst_apply, Ideal.ofBits_def]
  show max (a (ix2 p q) + shapeCast S1x128 x3 h (ix2 0 q)) (Ideal.ofBits .f32 0x00000000#32) = _
  rw [row128_apply]

/-- Adding the bias, reshaped to a row, is the reference's sum with the broadcast bias (width 64). -/
theorem bias64_eq (a : FVec Ideal S50000x64 .f32) (h : S64.ShapeCasts S1x64) :
    bias64 a (shapeCast S1x64 x5 h) = addf a (val_main_v65 (F := Ideal) x5) := by
  funext i
  obtain ⟨p, q, rfl⟩ : ∃ (p : Fin 50000) (q : Fin 64), i = ix2 p q := ⟨i 0, i 1, eq_ix2 i⟩
  rw [addf_apply, val_main_v65_apply, val_main_v64_apply, idx65]
  show a (ix2 p q) + shapeCast S1x64 x5 h (ix2 0 q) = _
  rw [row64_apply]

end Cert.Gcn.Bridge

end
-- ==== Proof.Chain.lean ====
/-
  The kernel's two results are the reference's.

  The buffer contents at each boundary of the kernel's @main, read from the result backwards: a region's output array is
  one whole-array function of its two input arrays (product, scaling, bias); its input arrays are either arguments of
  @main, which nothing writes, or what the host stretch before it wrote, which is the reference's next stage of the
  stages before; and each whole-array function is the reference's own stage index by index. So every buffer on the way
  holds exactly the reference's stage of the same name, and the two results are the reference's two results as
  functions of the seven arguments.
-/
import proofs.«163460_j64836826300546_1_alg».proof.Proof.RegMatmul3
import proofs.«163460_j64836826300546_1_alg».proof.Proof.RegMatmul6
import proofs.«163460_j64836826300546_1_alg».proof.Proof.RegScale4
import proofs.«163460_j64836826300546_1_alg».proof.Proof.RegScale7
import proofs.«163460_j64836826300546_1_alg».proof.Proof.RegBias5
import proofs.«163460_j64836826300546_1_alg».proof.Proof.RegBias8
import proofs.«163460_j64836826300546_1_alg».proof.Proof.Walk
import proofs.«163460_j64836826300546_1_alg».proof.Proof.HostReads
import proofs.«163460_j64836826300546_1_alg».proof.Proof.HostNorm
import proofs.«163460_j64836826300546_1_alg».proof.Proof.Bridge

set_option maxRecDepth 16384

noncomputable section

namespace Cert.Gcn.Chain

open Cert.KernelIdeal Cert.KernelIdeal.Gen Idealize.ShloMosaic Idealize.ShloMosaic.TcCoe Idealize.SL.Sem
open Cert.ReferenceIdeal.Read (val_main_v5 val_main_v6 val_main_v31 val_main_v32 val_main_v39 val_main_v42 val_main_v45
  val_main_v49 val_main_v50 val_main_v57 val_main_v60 val_main_v63 val_main_v66)

variable (m : (ℓ : Loc nD τ sig) → Buf (Elt Ideal) ℓ) (ρ : Dev nD → PrngReg)

/-- The seven arguments as launched, at their literal types. -/
abbrev a0 (c : Dev nD) : FVec Ideal S50000x128 .f32 := m ((c : Thread nD τ).loc main_arg0)
abbrev a1 (c : Dev nD) : FVec Ideal S800000 .f32 := m ((c : Thread nD τ).loc main_arg1)
abbrev a2 (c : Dev nD) : FVec Ideal S128x128 .f32 := m ((c : Thread nD τ).loc main_arg2)
abbrev a3 (c : Dev nD) : FVec Ideal S128 .f32 := m ((c : Thread nD τ).loc main_arg3)
abbrev a4 (c : Dev nD) : FVec Ideal S128x64 .f32 := m ((c : Thread nD τ).loc main_arg4)
abbrev a5 (c : Dev nD) : FVec Ideal S64 .f32 := m ((c : Thread nD τ).loc main_arg5)
abbrev a6 (c : Dev nD) : IVec S2x800000 32 := m ((c : Thread nD τ).loc main_arg6)

/-! ## First layer -/

/-- x · W1. -/
theorem v48 (c : Dev nD) : W10 m ρ c (Proc.devRef .tc main_v48) = val_main_v32 (F := Ideal) (a0 m c) (a2 m c) :=
  (W10_arr m ρ c 2).trans ((Matmul3.arr (V9 m ρ) c).trans
    ((congrArg₂ mm128 (Walk.W9_arg0 m ρ c) (Walk.W9_arg2 m ρ c)).trans (Bridge.mm128_eq (a0 m c) (a2 m c))))

/-- Its rows gathered at the edges' source nodes. -/
theorem v55 (c : Dev nD) : W11 m ρ c (Proc.devRef .tc main_v55) = val_main_v39 (F := Ideal) (a0 m c) (a2 m c) (a6 m c) :=
  Host.host4_v55 m ρ (a0 m c) (a2 m c) (a6 m c) c (v48 m ρ c) ((Walk.W10_v5 m ρ c).trans (Host.W3_v5 m ρ c))

/-- The edge coefficients as a column. -/
theorem v56 (c : Dev nD) : W11 m ρ c (Proc.devRef .tc main_v56)
    = shapeCast S850000x1 (val_main_v31 (F := Ideal) (a1 m c) (a6 m c)) shapeCasts_S850000_S850000x1 :=
  Host.host4_v56 m ρ (a1 m c) (a6 m c) c ((Walk.W10_v31 m ρ c).trans (HostNorm.W3_v31 m ρ c))

/-- The gathered rows scaled. -/
theorem v57 (c : Dev nD) : W12 m ρ c (Proc.devRef .tc main_v57)
    = val_main_v42 (F := Ideal) (a0 m c) (a1 m c) (a2 m c) (a6 m c) :=
  (W12_arr m ρ c 2).trans ((Scale4.arr (V11 m ρ) c).trans
    ((congrArg₂ scale128 (v55 m ρ c) (v56 m ρ c)).trans (Bridge.scale128_eq (a1 m c) (a6 m c) _ _)))

/-- The scaled rows summed into the edges' target nodes. -/
theorem v60 (c : Dev nD) : W13 m ρ c (Proc.devRef .tc main_v60)
    = val_main_v45 (F := Ideal) (a0 m c) (a1 m c) (a2 m c) (a6 m c) :=
  Host.host5_v60 m ρ (a0 m c) (a1 m c) (a2 m c) (a6 m c) c (v57 m ρ c) ((Walk.W12_v6 m ρ c).trans (Host.W3_v6 m ρ c))

/-- The first bias as a row. -/
theorem v61 (c : Dev nD) : W13 m ρ c (Proc.devRef .tc main_v61) = shapeCast S1x128 (a3 m c) shapeCasts_S128_S1x128 :=
  Host.host5_v61 m ρ (a3 m c) c (Walk.W12_arg3 m ρ c)

/-- The first result: the bias added and the negative part cut off. -/
theorem v62 (c : Dev nD) : W14 m ρ c (Proc.devRef .tc main_v62)
    = val_main_v49 (F := Ideal) (a0 m c) (a1 m c) (a2 m c) (a3 m c) (a6 m c) :=
  (W14_arr m ρ c 2).trans ((Bias5.arr (V13 m ρ) c).trans
    ((congrArg₂ biasRelu128 (v60 m ρ c) (v61 m ρ c)).trans (Bridge.biasRelu128_eq (a3 m c) _ _)))

/-! ## Second layer -/

/-- The first result times W2. -/
theorem v63 (c : Dev nD) : W15 m ρ c (Proc.devRef .tc main_v63)
    = val_main_v50 (F := Ideal) (a0 m c) (a1 m c) (a2 m c) (a3 m c) (a4 m c) (a6 m c) :=
  (W15_arr m ρ c 2).trans ((Matmul6.arr (V14 m ρ) c).trans
    ((congrArg₂ mm64 (v62 m ρ c) (Walk.W14_arg4 m ρ c)).trans
      (Bridge.mm64_eq (a0 m c) (a1 m c) (a2 m c) (a3 m c) (a4 m c) (a6 m c))))

/-- Its rows gathered at the edges' source nodes. -/
theorem v70 (c : Dev nD) : W16 m ρ c (Proc.devRef .tc main_v70)
    = val_main_v57 (F := Ideal) (a0 m c) (a1 m c) (a2 m c) (a3 m c) (a4 m c) (a6 m c) :=
  Host.host7_v70 m ρ (a0 m c) (a1 m c) (a2 m c) (a3 m c) (a4 m c) (a6 m c) c (v63 m ρ c)
    ((Walk.W15_v5 m ρ c).trans (Host.W3_v5 m ρ c))

/-- The edge coefficients as a column. -/
theorem v71 (c : Dev nD) : W16 m ρ c (Proc.devRef .tc main_v71)
    = shapeCast S850000x1 (val_main_v31 (F := Ideal) (a1 m c) (a6 m c)) shapeCasts_S850000_S850000x1 :=
  Host.host7_v71 m ρ (a1 m c) (a6 m c) c ((Walk.W15_v31 m ρ c).trans (HostNorm.W3_v31 m ρ c))

/-- The gathered rows scaled. -/
theorem v72 (c : Dev nD) : W17 m ρ c (Proc.devRef .tc main_v72)
    = val_main_v60 (F := Ideal) (a0 m c) (a1 m c) (a2 m c) (a3 m c) (a4 m c) (a6 m c) :=
  (W17_arr m ρ c 2).trans ((Scale7.arr (V16 m ρ) c).trans
    ((congrArg₂ scale64 (v70 m ρ c) (v71 m ρ c)).trans (Bridge.scale64_eq (a1 m c) (a6 m c) _ _)))

/-- The scaled rows summed into the edges' target nodes. -/
theorem v75 (c : Dev nD) : W18 m ρ c (Proc.devRef .tc main_v75)
    = val_main_v63 (F := Ideal) (a0 m c) (a1 m c) (a2 m c) (a3 m c) (a4 m c) (a6 m c) :=
  Host.host8_v75 m ρ (a0 m c) (a1 m c) (a2 m c) (a3 m c) (a4 m c) (a6 m c) c (v72 m ρ c)
    ((Walk.W17_v6 m ρ c).trans (Host.W3_v6 m ρ c))

/-- The second bias as a row. -/
theorem v76 (c : Dev nD) : W18 m ρ c (Proc.devRef .tc main_v76) = shapeCast S1x64 (a5 m c) shapeCasts_S64_S1x64 :=
  Host.host8_v76 m ρ (a5 m c) c (Walk.W17_arg5 m ρ c)

/-! ## The two results -/

/-- The second result, at the end of @main, is the reference's second result of the seven arguments. -/
theorem out1 (c : Dev nD) : W19 m ρ c (Proc.devRef .tc main_v77)
    = val_main_v66 (F := Ideal) (a0 m c) (a1 m c) (a2 m c) (a3 m c) (a4 m c) (a5 m c) (a6 m c) :=
  (W19_arr m ρ c 2).trans ((Bias8.arr (V18 m ρ) c).trans
    ((congrArg₂ bias64 (v75 m ρ c) (v76 m ρ c)).trans (Bridge.bias64_eq (a5 m c) _ _)))

/-- The first result is still there at the end of @main, and is the reference's first result. -/
theorem out0 (c : Dev nD) : W19 m ρ c (Proc.devRef .tc main_v62)
    = val_main_v49 (F := Ideal) (a0 m c) (a1 m c) (a2 m c) (a3 m c) (a6 m c) :=
  (Walk.W19_v62 m ρ c).trans (v62 m ρ c)

end Cert.Gcn.Chain

end
-- ==== Proof.lean ====
/-
  Two graph-convolution layers on 50000 nodes and 850000 edges (the 800000 given ones and a self loop per node):
  embedding = max(S(x · W1) + b1, 0) and out = S(embedding · W2) + b2, where S gathers the rows of its argument at the
  edges' source nodes, scales row e by the symmetric normalisation coefficient of edge e, and sums the rows into the
  edges' target nodes.

  The kernel computes the dense pieces in tiled regions (the product 5000 rows at a time against the whole weight,
  with its operands narrowed to a shorter float format first; the scaling 10000 edges at a time; the bias and the cut
  at zero 5000 rows at a time) and leaves the coefficients, the gather and the summation to the same host operations
  the reference uses. On the extended reals a change of float format is the identity and a product accumulated from
  zero is the plain sum over the shared axis, so each region's output array is, index by index, the reference's own
  stage of its inputs; the tiles cover their arrays exactly. No algebraic law beyond that is needed, and the
  precondition is never opened. The kernel also computes the first layer a second time without the cut at zero and
  discards it; that changes no result.

  Frames: the two kernel programs' by the generated frame; the reference's by its generated run. The idealization
  rewrote nothing, so there is nothing to preserve. The equivalence: the kernel's run with its two results named
  (RunNamed), each result read back through @main to the reference's stage (Chain), against the reference's run.
-/
import proofs.«163460_j64836826300546_1_alg».proof.Defs
import proofs.«163460_j64836826300546_1_alg».proof.Proof.Gen.Kernel
import proofs.«163460_j64836826300546_1_alg».proof.Proof.Gen.Kernel.Frame
import proofs.«163460_j64836826300546_1_alg».proof.Proof.Gen.KernelIdeal
import proofs.«163460_j64836826300546_1_alg».proof.Proof.Gen.KernelIdeal.Frame
import proofs.«163460_j64836826300546_1_alg».proof.Proof.Gen.ReferenceIdeal
import proofs.«163460_j64836826300546_1_alg».proof.Proof.Gen.ReferenceIdeal.Run
import proofs.«163460_j64836826300546_1_alg».proof.Proof.Gen.ReferenceIdeal.Read
import proofs.«163460_j64836826300546_1_alg».proof.Proof.Gen.Pre_finite_inputs
import proofs.«163460_j64836826300546_1_alg».proof.Proof.RunNamed
import proofs.«163460_j64836826300546_1_alg».proof.Proof.Chain
import Idealize.ShloMosaic.Adequacy
import Idealize.ShloMosaic.Init

noncomputable section

namespace Cert.Proof

open Idealize.ShloMosaic Idealize.SL.Sem

/-- The word-level kernel runs and leaves its arguments alone. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is host operations only: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the seven arguments both programs end with the reference's two stages of those
    arguments in their result arrays. -/
theorem algebraic : Cert.algebraic_KernelIdeal_ReferenceIdeal := by
  intro m ρ m' ρ' _ hagree
  refine ⟨_, _, Cert.KernelIdeal.RunNamed.run_named (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6⟩ := hagree c
    rw [Cert.ReferenceIdeal.Read.val_main_v49_eq, Cert.Gcn.Chain.out0 m ρ c, e0, e1, e2, e3, e6]
  · obtain ⟨e0, e1, e2, e3, e4, e5, e6⟩ := hagree c
    rw [Cert.ReferenceIdeal.Read.val_main_v66_eq, Cert.Gcn.Chain.out1 m ρ c, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
